-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S512x1000 : Shape := ⟨2, ![512, 1000]⟩
abbrev S512 : Shape := ⟨1, ![512]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S512x1000 : S_.BroadcastsInDim S512x1000 (![] : Fin 0 → Fin S512x1000.rank)
  reducesTo_S512x1000_S_d0_1 : S512x1000.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg1 : IVec S131072 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S131072 32 := broadcastInDim S131072 ![] bcast_S_S131072 main_c_6
  let main_v20 : IVec S131072 1 := cmpi .sge main_arg1 main_v19
  let main_c_7 : IVec S_ 1 := constantI S_ 1 1#1
  let main_v21 : IVec S_ 1 := (fun x v => Host.reduce IntOp.andi x v reducesTo_S131072_S_d0 h_S_) main_v20 main_c_7
  let main_v22 : IVec S_ 1 := andi main_v18 main_v21
  let main_c_8 : IVec S_ 32 := constantI S_ 32 1000#32
  let main_v23 : IVec S131072 32 := broadcastInDim S131072 ![] bcast_S_S131072 main_c_8
  let main_v24 : IVec S131072 1 := cmpi .slt main_arg1 main_v23
  let main_c_9 : IVec S_ 1 := constantI S_ 1 1#1
  let main_v25 : IVec S_ 1 := (fun x v => Host.reduce IntOp.andi x v reducesTo_S131072_S_d0 h_S_) main_v24 main_c_9
  let main_v26 : IVec S_ 1 := andi main_v22 main_v25
  main_v26

def fn {F : FTy → Type} [FloatOps F] (main_arg0 : FVec F S131072 .f32) (main_arg1 : IVec S131072 32) (main_arg2 : FVec F S512x1000 .f32) (main_arg3 : FVec F S512 .f32) (main_arg4 : FVec F S512 .f32) : IVec S_ 1 :=
  let main_v0 : FVec F S131072 .f32 := Host.absf main_arg0
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S512x1000 .f32 := Host.absf main_arg2
  let main_cst_0 : FVec F S_ .f32 := constant S_ .f32 0x7F800000#32
  let main_v5 : FVec F S512x1000 .f32 := broadcastInDim S512x1000 ![] bcast_S_S512x1000 main_cst_0
  let main_v6 : IVec S512x1000 1 := cmpf .olt main_v4 main_v5
  let main_c_1 : IVec S_ 1 := constantI S_ 1 1#1
  let main_v7 : IVec S_ 1 := (fun x v => Host.reduce IntOp.andi x v reducesTo_S512x1000_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S131072 : Shape := ⟨1, ![131072]⟩
abbrev S512x1000 : Shape := ⟨2, ![512, 1000]⟩
abbrev S512 : Shape := ⟨1, ![512]⟩
abbrev S1x131072 : Shape := ⟨2, ![1, 131072]⟩
abbrev S_ : Shape := ⟨0, ![]⟩
abbrev S1000x512 : Shape := ⟨2, ![1000, 512]⟩
abbrev S1x512 : Shape := ⟨2, ![1, 512]⟩
abbrev S131072x512 : Shape := ⟨2, ![131072, 512]⟩
abbrev S1x4096 : Shape := ⟨2, ![1, 4096]⟩
abbrev S4096x512 : Shape := ⟨2, ![4096, 512]⟩
abbrev S512x512 : Shape := ⟨2, ![512, 512]⟩
abbrev S1x1000 : Shape := ⟨2, ![1, 1000]⟩
abbrev S512x1 : Shape := ⟨2, ![512, 1]⟩

abbrev nBuf : Space → Nat
  | .hbm => 29
  | .vmem => 9
  | .smem => 0
  | _ => 0

abbrev bufTy : (tb : Table) → Fin (tcTables nBuf tb) → BufTy
  | .hbm, ⟨0, _⟩ => ⟨S131072, .f32⟩
  | .hbm, ⟨1, _⟩ => ⟨S131072, .i32⟩
  | .hbm, ⟨2, _⟩ => ⟨S512x1000, .f32⟩
  | .hbm, ⟨3, _⟩ => ⟨S512, .f32⟩
  | .hbm, ⟨4, _⟩ => ⟨S512, .f32⟩
  | .hbm, ⟨5, _⟩ => ⟨S1x131072, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S1x131072, .i32⟩
  | .hbm, ⟨15, _⟩ => ⟨S1000x512, .f32⟩
  | .hbm, ⟨16, _⟩ => ⟨S_, .f32⟩
  | .hbm, ⟨17, _⟩ => ⟨S1000x512, .f32⟩
  | .hbm, ⟨18, _⟩ => ⟨S1000x512, .f32⟩
  | .hbm, ⟨19, _⟩ => ⟨S1000x512, .bf16⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S1x512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S131072x512, .f32⟩
  | .local _ .vmem, ⟨0, _⟩ => ⟨S1x4096, .f32⟩
  | .local _ .vmem, ⟨1, _⟩ => ⟨S1x4096, .f32⟩
  | .local _ .vmem, ⟨2, _⟩ => ⟨S1x4096, .i32⟩
  | .local _ .vmem, ⟨3, _⟩ => ⟨S1x4096, .i32⟩
  | .local _ .vmem, ⟨4, _⟩ => ⟨S1000x512, .bf16⟩
  | .local _ .vmem, ⟨5, _⟩ => ⟨S1x512, .f32⟩
  | .local _ .vmem, ⟨6, _⟩ => ⟨S1x512, .f32⟩
  | .local _ .vmem, ⟨7, _⟩ => ⟨S4096x512, .f32⟩
  | .local _ .vmem, ⟨8, _⟩ => ⟨S4096x512, .f32⟩
  | _, _ => ⟨S131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v11 : BitVec 32 := Scalar.muli c0_i32 c512_i32
  v11
def k0_off1 (c0_i32 : BitVec 32) : Fin 2 → Nat :=
  let c0_5 : Index := 0#32
  let c512_i32 : BitVec 32 := 512#32
  let v11 : BitVec 32 := Scalar.muli c0_i32 c512_i32
  let v12 : BitVec 32 := v11
  let v13 : Index := Scalar.indexCast v12
  ![0, v13.toNat]
def k0_off2 (c0_i32 : BitVec 32) : Fin 2 → Nat :=
  let c512_i32 : BitVec 32 := 512#32
  let v11 : BitVec 32 := Scalar.muli c0_i32 c512_i32
  let v12 : BitVec 32 := v11
  let v38 : Index := Scalar.indexCast v12
  let c0_8 : Index := 0#32
  ![v38.toNat, 0]
def k0_mult2 : BitVec 32 :=
  let c1_i32 : BitVec 32 := 1#32
  let c512_i32_9 : BitVec 32 := 512#32
  let v40 : BitVec 32 := Scalar.muli c1_i32 c512_i32_9
  v40
def k0_mult3 : BitVec 32 :=
  let c2_i32 : BitVec 32 := 2#32
  let c512_i32_15 : BitVec 32 := 512#32
  let v69 : BitVec 32 := Scalar.muli c2_i32 c512_i32_15
  v69
def k0_mult4 : BitVec 32 :=
  let c3_i32 : BitVec 32 := 3#32
  let c512_i32_21 : BitVec 32 := 512#32
  let v98 : BitVec 32 := Scalar.muli c3_i32 c512_i32_21
  v98
def k0_mult5 : BitVec 32 :=
  let c4_i32 : BitVec 32 := 4#32
  let c512_i32_27 : BitVec 32 := 512#32
  let v127 : BitVec 32 := Scalar.muli c4_i32 c512_i32_27
  v127
def k0_mult6 : BitVec 32 :=
  let c5_i32 : BitVec 32 := 5#32
  let c512_i32_33 : BitVec 32 := 512#32
  let v156 : BitVec 32 := Scalar.muli c5_i32 c512_i32_33
  v156
def k0_mult7 : BitVec 32 :=
  let c6_i32 : BitVec 32 := 6#32
  let c512_i32_39 : BitVec 32 := 512#32
  let v185 : BitVec 32 := Scalar.muli c6_i32 c512_i32_39
  v185
def k0_mult8 : BitVec 32 :=
  let c7_i32 : BitVec 32 := 7#32
  let c512_i32_45 : BitVec 32 := 512#32
  let v214 : BitVec 32 := Scalar.muli c7_i32 c512_i32_45
  v214
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S131072_S1x131072 : S131072.ShapeCasts S1x131072
  bcast_S_S131072 : S_.BroadcastsInDim S131072 (![] : Fin 0 → Fin S131072.rank)
  transposes_S512x1000_S1000x512_1_0 : S512x1000.Transposes [1, 0] S1000x512
  bcast_S_S1000x512 : S_.BroadcastsInDim S1000x512 (![] : Fin 0 → Fin S1000x512.rank)
  bitsLt_bf16_f32 : FTy.bits .bf16 < FTy.bits .f32
  bcast_S_S512 : S_.BroadcastsInDim S512 (![] : Fin 0 → Fin S512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  iota_S1x1000_d1_w32 : S1x1000.Iotas .tc 32 [1]
  transposes_S1x512_p1_0_S512x1 : S1x512.Transposes [1, 0] S512x1
  broadcasts_S512x1_S512x1000 : S512x1.Broadcasts S512x1000
  broadcasts_S1x1000_S512x1000 : S1x1000.Broadcasts S512x1000
  natLt_1_32 : 1 < 32
  broadcasts_S512x1_S512x512 : S512x1.Broadcasts S512x512
  h_S512x512 : 0 < S512x512.numel
  dot_S512x1000_S1000x512_S512x512_1_0_0_1_n_n_wf : DotDims.WF S512x1000 S1000x512 S512x512 [1] [0] [0] [1] [] []
  hrank0 : 0 < grid0.rank
  k0_mult1_dvd : 128 ∣ k0_mult1.toNat
  k0_off1_inb : ∀ (r : Fin 8), ∀ a, (k0_off1 (BitVec.ofNat 32 r.val)) a + S1x512.size a ≤ S1x4096.size a
  k0_off2_inb : ∀ (r : Fin 8), ∀ a, (k0_off2 (BitVec.ofNat 32 r.val)) a + S512x512.size a ≤ S4096x512.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x131072.size a
  hwx0_0 : ∀ i : grid0.Coords, EltTy.bits .f32 = 32 ∨ (Rect.block (s := S1x131072) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x131072.size a
  hwx0_1 : ∀ i : grid0.Coords, EltTy.bits .i32 = 32 ∨ (Rect.block (s := S1x131072) S1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .bf16 = 32 ∨ (Rect.block (s := S1000x512) S1000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S131072x512.size a
  hwx0_5 : ∀ i : grid0.Coords, EltTy.bits .f32 = 32 ∨ (Rect.block (s := S131072x512) S4096x512.size (cc0_transform_5 i) (hinb0_5 i)).WholeWords (EltTy.packing .f32)

variable [Facts₀]

def dot_S512x1000_S1000x512_S512x512_1_0_0_1_n_n : DotDims S512x1000 S1000x512 S512x512 where
  lhsContracting := [1]
  rhsContracting := [0]
  lhsNonContracting := [0]
  rhsNonContracting := [1]
  lhsBatch := []
  rhsBatch := []
  wf := dot_S512x1000_S1000x512_S512x512_1_0_0_1_n_n_wf

abbrev win0_0 : Pipeline.Window sig grid0 :=
  Pipeline.Window.ofSpec (Memref.whole main_v0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072 : Shape := ⟨1, ![131072]⟩
abbrev S512x1000 : Shape := ⟨2, ![512, 1000]⟩
abbrev S512 : Shape := ⟨1, ![512]⟩
abbrev S1000x512 : Shape := ⟨2, ![1000, 512]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x512 : Shape := ⟨2, ![131072, 512]⟩
abbrev S1x512 : Shape := ⟨2, ![1, 512]⟩

abbrev nBuf : Space → Nat
  | .hbm => 52
  | .vmem => 0
  | .smem => 0
  | _ => 0

abbrev bufTy : (tb : Table) → Fin (tcTables nBuf tb) → BufTy
  | .hbm, ⟨0, _⟩ => ⟨S131072, .f32⟩
  | .hbm, ⟨1, _⟩ => ⟨S131072, .i32⟩
  | .hbm, ⟨2, _⟩ => ⟨S512x1000, .f32⟩
  | .hbm, ⟨3, _⟩ => ⟨S512, .f32⟩
  | .hbm, ⟨4, _⟩ => ⟨S512, .f32⟩
  | .hbm, ⟨5, _⟩ => ⟨S1000x512, .f32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S1, .i32⟩
  | .hbm, ⟨15, _⟩ => ⟨S_, .i32⟩
  | .hbm, ⟨16, _⟩ => ⟨S131072x1, .i32⟩
  | .hbm, ⟨17, _⟩ => ⟨S131072x1, .i1⟩
  | .hbm, ⟨18, _⟩ => ⟨S1x1, .i32⟩
  | .hbm, ⟨19, _⟩ => ⟨S131072x1, .i32⟩
  | .hbm, ⟨20, _⟩ => ⟨S131072x1, .i1⟩
  | .hbm, ⟨21, _⟩ => ⟨S131072x1, .i1⟩
  | .hbm, ⟨22, _⟩ => ⟨S_, .i1⟩
  | .hbm, ⟨23, _⟩ => ⟨S131072, .i1⟩
  | .hbm, ⟨24, _⟩ => ⟨S131072x512, .f32⟩
  | .hbm, ⟨25, _⟩ => ⟨S131072x512, .i1⟩
  | .hbm, ⟨26, _⟩ => ⟨S_, .f32⟩
  | .hbm, ⟨27, _⟩ => ⟨S131072x512, .f32⟩
  | .hbm, ⟨28, _⟩ => ⟨S131072x512, .f32⟩
  | .hbm, ⟨29, _⟩ => ⟨S131072x1, .f32⟩
  | .hbm, ⟨30, _⟩ => ⟨S1x512, .f32⟩
  | .hbm, ⟨31, _⟩ => ⟨S131072x512, .f32⟩
  | .hbm, ⟨32, _⟩ => ⟨S131072x512, .f32⟩
  | .hbm, ⟨33, _⟩ => ⟨S131072x512, .f32⟩
  | .hbm, ⟨34, _⟩ => ⟨S1x512, .f32⟩
  | .hbm, ⟨35, _⟩ => ⟨S131072x512, .f32⟩
  | .hbm, ⟨36, _⟩ => ⟨S131072x512, .f32⟩
  | .hbm, ⟨37, _⟩ => ⟨S_, .f32⟩
  | .hbm, ⟨38, _⟩ => ⟨S131072x512, .f32⟩
  | .hbm, ⟨39, _⟩ => ⟨S131072x512, .f32⟩
  | .hbm, ⟨40, _⟩ => ⟨S_, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S131072x1, .f32⟩
  | .hbm, ⟨45, _⟩ => ⟨S_, .f32⟩
  | .hbm, ⟨46, _⟩ => ⟨S131072x1, .f32⟩
  | .hbm, ⟨47, _⟩ => ⟨S131072x1, .i1⟩
  | .hbm, ⟨48, _⟩ => ⟨S_, .f32⟩
  | .hbm, ⟨49, _⟩ => ⟨S131072x512, .i1⟩
  | .hbm, ⟨50, _⟩ => ⟨S131072x512, .f32⟩
  | .hbm, ⟨51, _⟩ => ⟨S131072x512, .f32⟩
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_v18 : Ref sig .tc := ⟨.hbm, 51, rfl⟩

abbrev nD : Nat := 1
abbrev τ : Topo := Topo.v7x

variable {F : FTy → Type} [FloatOps F]

class Facts₀ : Prop where
  transposes_S512x1000_S1000x512_1_0 : S512x1000.Transposes [1, 0] S1000x512
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x512_0 : S131072.BroadcastsInDim S131072x512 (![0] : Fin 1 → Fin S131072x512.rank)
  bcast_S_S131072x512 : S_.BroadcastsInDim S131072x512 (![] : Fin 0 → Fin S131072x512.rank)
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  gather_S1000x512_S131072x1_S131072x512_1_0_n_n_0_1_1512_wf : GatherDims.WF S1000x512 S131072x1 S131072x512 [1] [0] [] [0] [] 1 ![1, 512]

variable [Facts₀]

def gather_S1000x512_S131072x1_S131072x512_1_0_n_n_0_1_1512 : GatherDims S1000x512 S131072x1 S131072x512 where
  offsetDims := [1]
  collapsedSliceDims := [0]
  operandBatchingDims := []
  startIndicesBatchingDims := []
  startIndexMap := [0]
  indexVectorDim := 1
  sliceSizes := ![1, 512]
  wf := gather_S1000x512_S131072x1_S131072x512_1_0_n_n_0_1_1512_wf

class Facts : Prop extends Facts₀ where

variable [Facts]
-- ==== Proof.ChunkRows.lean ====
/-
  One chunk of 512 rows of the kernel's body, entry by entry at the extended reals. The body handles its block of
  4096 rows in eight chunks; every chunk stores the same function of the resident operands (the table `wm`, the
  slope and offset rows broadcast to the chunk) and of the chunk's slice of the times and the markers:

      chunk[p, q] = ( Σ_k [marker p = k] · wm[k, q]  +  (t p · wt[p, q] + bt[p, q]) ) · [t p ≥ 0].

  The sum is a matrix product with a one-hot row, so for a marker that is a column number it is the single term
  `wm[marker p, q]` (`1 · x = x`, `0 · x = 0`, also at the infinities). The printer cuts the body at fixed
  positions, so the eight stores name this function through different intermediate values; they are one term.
-/
import proofs.«403749_j61864708932005_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx

/-- The lane numbers `0 … 999` along the second axis. -/
abbrev lanes : IVec S1x1000 32 := iota .tc S1x1000 32 [1] iota_S1x1000_d1_w32

section OneTerm
variable {F : FTy → Type} [FloatOps F]

/-- The first chunk's store: the resident operands loaded and broadcast inside the same value. -/
theorem first_eq (v0 : Vec F S1000x512 .bf16) (v2 v4 v14 : Vec F S1x512 .f32) (v17 : Vec F S1x512 .i32) :
    k0_pay5 v0 v2 v4 v14 v17 = k0_pay6 (k0_pay2 v0) (k0_pay3 v2) (k0_pay4 v4) lanes v14 v17 := rfl

/-- The third chunk's store: its value is cut after the sum and finished by the mask. -/
theorem third_eq (v1 : FVec F S1000x512 .bf16) (v7 v9 : FVec F S512x512 .f32) (v10 : IVec S1x1000 32)
    (v72 : Vec F S1x512 .f32) (v75 : Vec F S1x512 .i32) :
    k0_pay10 (k0_pay7 v72) (k0_pay8 v1 v7 v9 v10 v72 v75) k0_pay9 = k0_pay6 v1 v7 v9 v10 v72 v75 := rfl

theorem fourth_eq : @k0_pay11 F _ = @k0_pay6 F _ := rfl

/-- The fifth chunk's store: its two slices are transposed before the cut. -/
theorem fifth_eq (v1 : FVec F S1000x512 .bf16) (v7 v9 : FVec F S512x512 .f32) (v10 : IVec S1x1000 32)
    (v130 : Vec F S1x512 .f32) (v133 : Vec F S1x512 .i32) :
    k0_pay14 v1 v7 v9 v10 (k0_pay12 v130) (k0_pay13 v133) = k0_pay6 v1 v7 v9 v10 v130 v133 := rfl

theorem sixth_eq : @k0_pay15 F _ = @k0_pay6 F _ := rfl

theorem seventh_eq : @k0_pay16 F _ = @k0_pay6 F _ := rfl

/-- The last chunk's store: the matrix product and the broadcast time are cut off before it. -/
theorem eighth_eq (v1 : FVec F S1000x512 .bf16) (v7 v9 : FVec F S512x512 .f32) (v10 : IVec S1x1000 32)
    (v217 : Vec F S1x512 .f32) (v220 : Vec F S1x512 .i32) :
    k0_pay1 v7 v9 (k0_pay17 v217) (k0_pay18 v1 v10 v220) (k0_pay19 v217) = k0_pay6 v1 v7 v9 v10 v217 v220 := rfl

end OneTerm

/-! ## Layout operations of the chunk read at an entry -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A chunk's slice `[1, 512]` turned into a column: entry `(p, 0)` of the column is entry `(0, p)` of the slice. -/
theorem column_apply (x : S1x512.Idx → α) (p : Fin 512) :
    transpose S512x1 [1, 0] (shapeCast S1x512 x shapeCasts_S1x512_S1x512) transposes_S1x512_p1_0_S512x1 (ix2 p (0 : Fin 1))
      = x (ix2 (0 : Fin 1) p) := by
  refine (transpose_ix2_apply _ _ p (0 : Fin 1)).trans ?_
  rw [shapeCast_self]

end Layout

/-- Lane `k` of the lane numbers is the word `k`. -/
theorem lanes_apply (k : Fin 1000) : lanes (ix2 (0 : Fin 1) k) = BitVec.ofNat 32 k.val :=
  iota_single_apply .tc S1x1000 32 1 iota_S1x1000_d1_w32 (ix2 (0 : Fin 1) k)

/-! ## A one-bit condition converted to a number -/

/-- A condition bit widened to a word and converted is `1` or `0`. -/
theorem sitofp_ofBool (c : Bool) :
    FloatOps.sitofp (F := Ideal) .f32 ((BitVec.ofBool c).setWidth 32) = if c then (1 : EReal) else 0 := by
  cases c
  · have h : ((BitVec.ofBool false).setWidth 32).toInt = 0 := by decide
    show ((((BitVec.ofBool false).setWidth 32).toInt : ℝ) : EReal) = _
    rw [h]; simp
  · have h : ((BitVec.ofBool true).setWidth 32).toInt = 1 := by decide
    show ((((BitVec.ofBool true).setWidth 32).toInt : ℝ) : EReal) = _
    rw [h]; simp

/-! ## The one-hot row -/

/-- Entry `(p, k)` of the one-hot matrix: `1` when the marker of row `p` is `k`, else `0`. -/
theorem onehot_apply (mc : IVec S1x512 32) (p : Fin 512) (k : Fin 1000) :
    truncf (F := Ideal) .bf16
        (sitofp .f32
          (extui 32
            (cmpi .eq
              (broadcastTo S512x1000
                (transpose S512x1 [1, 0] (shapeCast S1x512 mc shapeCasts_S1x512_S1x512) transposes_S1x512_p1_0_S512x1)
                broadcasts_S512x1_S512x1000)
              (broadcastTo S512x1000 lanes broadcasts_S1x1000_S512x1000))
            natLt_1_32))
        bitsLt_bf16_f32 (ix2 p k)
      = if (mc (ix2 (0 : Fin 1) p)).toNat = k.val then (1 : EReal) else 0 := by
  have hA : broadcastTo S512x1000
      (transpose S512x1 [1, 0] (shapeCast S1x512 mc shapeCasts_S1x512_S1x512) transposes_S1x512_p1_0_S512x1)
      broadcasts_S512x1_S512x1000 (ix2 p k) = mc (ix2 (0 : Fin 1) p) :=
    (broadcastTo_a1_ab_apply _ _ p k).trans (column_apply mc p)
  have hB : broadcastTo S512x1000 lanes broadcasts_S1x1000_S512x1000 (ix2 p k) = BitVec.ofNat 32 k.val :=
    (broadcastTo_1b_ab_apply _ _ p k).trans (lanes_apply k)
  show FloatOps.sitofp (F := Ideal) .f32 ((IntOp.cmpi .eq
      (broadcastTo S512x1000
        (transpose S512x1 [1, 0] (shapeCast S1x512 mc shapeCasts_S1x512_S1x512) transposes_S1x512_p1_0_S512x1)
        broadcasts_S512x1_S512x1000 (ix2 p k))
      (broadcastTo S512x1000 lanes broadcasts_S1x1000_S512x1000 (ix2 p k))).setWidth 32) = _
  rw [hA, hB]
  show FloatOps.sitofp (F := Ideal) .f32 ((BitVec.ofBool (mc (ix2 (0 : Fin 1) p) == BitVec.ofNat 32 k.val)).setWidth 32) = _
  rw [sitofp_ofBool]
  have hk : k.val < 2 ^ 32 := lt_trans k.isLt (by norm_num)
  by_cases h : (mc (ix2 (0 : Fin 1) p)).toNat = k.val
  · have hw : mc (ix2 (0 : Fin 1) p) = BitVec.ofNat 32 k.val :=
      BitVec.eq_of_toNat_eq (by rw [BitVec.toNat_ofNat, Nat.mod_eq_of_lt hk]; exact h)
    rw [if_pos h, if_pos (by rw [hw]; exact beq_self_eq_true _)]
  · have hw : ¬ mc (ix2 (0 : Fin 1) p) = BitVec.ofNat 32 k.val := fun e =>
      h (by rw [e, BitVec.toNat_ofNat, Nat.mod_eq_of_lt hk])
    rw [if_neg h, if_neg (by simpa using hw)]

/-! ## The matrix product -/

/-- Row axis of the left factor: the output's row. -/
theorem lhs_axis_0 (i : S512x512.Idx) (c : dot_S512x1000_S1000x512_S512x512_1_0_0_1_n_n.contr.Idx) :
    (dot_S512x1000_S1000x512_S512x512_1_0_0_1_n_n.lhsIdx i c 0).val = (i 0).val := by
  unfold DotDims.lhsIdx
  rw [dif_neg (show ¬(0 : Fin S512x1000.rank) ∈ dot_S512x1000_S1000x512_S512x512_1_0_0_1_n_n.lhsBatch by decide),
    dif_pos (show (0 : Fin S512x1000.rank) ∈ dot_S512x1000_S1000x512_S512x512_1_0_0_1_n_n.lhsNonContracting by decide)]
  rfl

/-- Column axis of the left factor: the summation position. -/
theorem lhs_axis_1 (i : S512x512.Idx) (c : dot_S512x1000_S1000x512_S512x512_1_0_0_1_n_n.contr.Idx) :
    (dot_S512x1000_S1000x512_S512x512_1_0_0_1_n_n.lhsIdx i c 1).val = (c ⟨0, by decide⟩).val :=
  dot_S512x1000_S1000x512_S512x512_1_0_0_1_n_n.lhsIdx_val_of_single rfl i c

/-- Row axis of the right factor: the summation position. -/
theorem rhs_axis_0 (i : S512x512.Idx) (c : dot_S512x1000_S1000x512_S512x512_1_0_0_1_n_n.contr.Idx) :
    (dot_S512x1000_S1000x512_S512x512_1_0_0_1_n_n.rhsIdx i c 0).val = (c ⟨0, by decide⟩).val :=
  dot_S512x1000_S1000x512_S512x512_1_0_0_1_n_n.rhsIdx_val_of_single rfl i c

/-- Column axis of the right factor: the output's column. -/
theorem rhs_axis_1 (i : S512x512.Idx) (c : dot_S512x1000_S1000x512_S512x512_1_0_0_1_n_n.contr.Idx) :
    (dot_S512x1000_S1000x512_S512x512_1_0_0_1_n_n.rhsIdx i c 1).val = (i 1).val := by
  unfold DotDims.rhsIdx
  rw [dif_neg (show ¬(1 : Fin S1000x512.rank) ∈ dot_S512x1000_S1000x512_S512x512_1_0_0_1_n_n.rhsBatch by decide),
    dif_pos (show (1 : Fin S1000x512.rank) ∈ dot_S512x1000_S1000x512_S512x512_1_0_0_1_n_n.rhsNonContracting by decide)]
  rfl

/-- The product into the zero accumulator, at an entry: the sum over the 1000 columns of the left factor. -/
theorem product_apply (A : FVec Ideal S512x1000 .bf16) (B : FVec Ideal S1000x512 .bf16) (p q : Fin 512) :
    matmul dot_S512x1000_S1000x512_S512x512_1_0_0_1_n_n none A B (constant (F := Ideal) S512x512 .f32 0x00000000#32) (ix2 p q)
      = ∑ k : Fin 1000, A (ix2 p k) * B (ix2 k q) := by
  simp only [matmul]
  rw [Ideal.matmul_constant_zero_apply,
    ← Equiv.sum_comp (contrEquiv1 dot_S512x1000_S1000x512_S512x512_1_0_0_1_n_n 1000 rfl rfl).symm]
  refine Finset.sum_congr rfl fun k _ => ?_
  have hk := contrEquiv1_symm_val dot_S512x1000_S1000x512_S512x512_1_0_0_1_n_n 1000 rfl rfl k
  have el : dot_S512x1000_S1000x512_S512x512_1_0_0_1_n_n.lhsIdx (ix2 p q)
      ((contrEquiv1 dot_S512x1000_S1000x512_S512x512_1_0_0_1_n_n 1000 rfl rfl).symm k) = ix2 p k :=
    funext fun a => Fin.ext (by
      match a with
      | ⟨0, _⟩ => exact lhs_axis_0 _ _
      | ⟨1, _⟩ => exact (lhs_axis_1 _ _).trans hk)
  have er : dot_S512x1000_S1000x512_S512x512_1_0_0_1_n_n.rhsIdx (ix2 p q)
      ((contrEquiv1 dot_S512x1000_S1000x512_S512x512_1_0_0_1_n_n 1000 rfl rfl).symm k) = ix2 k q :=
    funext fun a => Fin.ext (by
      match a with
      | ⟨0, _⟩ => exact (rhs_axis_0 _ _).trans hk
      | ⟨1, _⟩ => exact rhs_axis_1 _ _)
  rw [el, er]

/-! ## The mask -/

/-- Entry `(p, q)` of the mask: `1` when the time of row `p` is not negative, else `0`. -/
theorem mask_apply (tc : Vec Ideal S1x512 .f32) (p q : Fin 512) :
    broadcastTo S512x512
        (sitofp (F := Ideal) .f32
          (extui 32
            (cmpf .oge
              (transpose S512x1 [1, 0] (shapeCast S1x512 tc shapeCasts_S1x512_S1x512) transposes_S1x512_p1_0_S512x1)
              (broadcast S512x1 (FloatOps.ofBits (F := Ideal) .f32 0x00000000#32)))
            natLt_1_32))
        broadcasts_S512x1_S512x512 (ix2 p q)
      = if (0 : EReal) ≤ tc (ix2 (0 : Fin 1) p) then (1 : EReal) else 0 := by
  refine (broadcastTo_a1_ab_apply _ _ p q).trans ?_
  show FloatOps.sitofp (F := Ideal) .f32 ((Ideal.cmp .oge
      (transpose S512x1 [1, 0] (shapeCast S1x512 tc shapeCasts_S1x512_S1x512) transposes_S1x512_p1_0_S512x1 (ix2 p (0 : Fin 1)))
      (Ideal.ofBits .f32 0x00000000#32)).setWidth 32) = _
  rw [column_apply tc p, Ideal.ofBits_zero_f32]
  show FloatOps.sitofp (F := Ideal) .f32 ((BitVec.ofBool (decide ((0 : EReal) ≤ tc (ix2 (0 : Fin 1) p)))).setWidth 32) = _
  rw [sitofp_ofBool]
  by_cases h : (0 : EReal) ≤ tc (ix2 (0 : Fin 1) p)
  · rw [if_pos h, if_pos (decide_eq_true h)]
  · rw [if_neg h, if_neg (by simpa using h)]

/-- The resident table as the body uses it: the loaded block. -/
theorem table_apply (v0 : Vec Ideal S1000x512 .bf16) (k : Fin 1000) (q : Fin 512) :
    k0_pay2 (F := Ideal) v0 (ix2 k q) = v0 (ix2 k q) :=
  congrFun (shapeCast_self v0 _) _

/-- The slope row broadcast down the chunk. -/
theorem slope_apply (v2 : Vec Ideal S1x512 .f32) (p q : Fin 512) :
    k0_pay3 (F := Ideal) v2 (ix2 p q) = v2 (ix2 (0 : Fin 1) q) := by
  unfold k0_pay3
  refine (broadcastTo_1b_ab_apply _ _ p q).trans ?_
  rw [shapeCast_self, shapeCast_self]

/-- The offset row broadcast down the chunk. -/
theorem offset_apply (v4 : Vec Ideal S1x512 .f32) (p q : Fin 512) :
    k0_pay4 (F := Ideal) v4 (ix2 p q) = v4 (ix2 (0 : Fin 1) q) := by
  unfold k0_pay4
  refine (broadcastTo_1b_ab_apply _ _ p q).trans ?_
  rw [shapeCast_self, shapeCast_self]

/-- ONE CHUNK AT AN ENTRY, for a marker that is a column number. -/
theorem chunk_apply (wm : FVec Ideal S1000x512 .bf16) (wt bt : FVec Ideal S512x512 .f32)
    (tc : Vec Ideal S1x512 .f32) (mc : IVec S1x512 32) (p q : Fin 512) (hm : (mc (ix2 (0 : Fin 1) p)).toNat < 1000) :
    k0_pay6 (F := Ideal) wm wt bt lanes tc mc (ix2 p q)
      = (wm (ix2 ⟨(mc (ix2 (0 : Fin 1) p)).toNat, hm⟩ q) + (tc (ix2 (0 : Fin 1) p) * wt (ix2 p q) + bt (ix2 p q)))
          * (if (0 : EReal) ≤ tc (ix2 (0 : Fin 1) p) then 1 else 0) := by
  -- the body's value is (product + (time column · slope + offset)) · mask; read the three non-pointwise factors
  unfold k0_pay6
  simp only [mulf_apply, addf_apply]
  refine congrArg₂ (· * ·) (congrArg₂ (· + ·) ?_ (congrArg₂ (· + ·) (congrArg₂ (· * ·) ?_ rfl) rfl)) ?_
  · -- the product's row is one-hot at the marker's column, so the sum over the 1000 columns is that one term
    refine (product_apply _ wm p q).trans ?_
    rw [Finset.sum_eq_single (⟨(mc (ix2 (0 : Fin 1) p)).toNat, hm⟩ : Fin 1000)]
    · rw [onehot_apply, if_pos rfl, one_mul]
    · intro k _ hne
      rw [onehot_apply, if_neg (fun e => hne (Fin.ext e.symm)), zero_mul]
    · intro h; exact absurd (Finset.mem_univ _) h
  · exact (broadcastTo_a1_ab_apply _ _ p q).trans (column_apply tc p)
  · exact mask_apply tc p q

end Cert.KernelIdeal.Chunk

end
-- ==== Proof.Blend.lean ====
/-
  The function both programs compute, entry by entry, on the extended reals.

  Row `s` of the result blends two embeddings of the event `(t s, marker s)` with weight one half each:
  the column `marker s` of the table `W_m`, and the affine map `t s · W_t + b_t` of the time; a row whose time is
  negative is zero:

      out[s, d] = 0                                                        if t[s] < 0
      out[s, d] = ½ · W_m[d, marker[s]] + ½ · (t[s] · W_t[d] + b_t[d])      otherwise.

  The marker is read as a column number of the table, `0 ≤ marker s < 1000`; outside that range the entry is
  stated at the nearest column (the range is a hypothesis of every statement that uses it).
-/
import Idealize.ShloMosaic.PureOps.Ideal
import Idealize.ShloMosaic.Lib.ValueIdx

noncomputable section

namespace Cert.Blend

open Idealize.ShloMosaic Idealize.ShloMosaic.ValueIdx

/-- The rows: one per event. -/
abbrev Srows : Shape := ⟨1, ![131072]⟩
/-- The marker table, one column per marker. -/
abbrev Stab : Shape := ⟨2, ![512, 1000]⟩
/-- A model-dimension vector. -/
abbrev Sdim : Shape := ⟨1, ![512]⟩
/-- The result: events by model dimension. -/
abbrev Sout : Shape := ⟨2, ![131072, 512]⟩

/-- The blending weight one half, as the word both programs carry. -/
abbrev half : EReal := Ideal.ofBits .f32 0x3F000000#32

/-- A marker word as a column of the table (the nearest column when the word is not below 1000). -/
def col (w : BitVec 32) : Fin 1000 := ⟨min w.toNat 999, by omega⟩

theorem col_of_lt (w : BitVec 32) (h : w.toNat < 1000) : col w = ⟨w.toNat, h⟩ :=
  Fin.ext (by show min w.toNat 999 = w.toNat; omega)

/-- Entry `(s, d)` of the blend. -/
def blendAt (t : FVec Ideal Srows .f32) (mk : IVec Srows 32) (Wm : FVec Ideal Stab .f32) (Wt bt : FVec Ideal Sdim .f32)
    (s : Fin 131072) (d : Fin 512) : EReal :=
  if t (ix1 s) < 0 then 0
  else half * Wm (ix2 d (col (mk (ix1 s)))) + half * (t (ix1 s) * Wt (ix1 d) + bt (ix1 d))

/-- The blend as an array. -/
def blend (t : FVec Ideal Srows .f32) (mk : IVec Srows 32) (Wm : FVec Ideal Stab .f32) (Wt bt : FVec Ideal Sdim .f32) :
    FVec Ideal Sout .f32 :=
  fun i => blendAt t mk Wm Wt bt (i 0) (i 1)

theorem blend_apply (t : FVec Ideal Srows .f32) (mk : IVec Srows 32) (Wm : FVec Ideal Stab .f32) (Wt bt : FVec Ideal Sdim .f32)
    (s : Fin 131072) (d : Fin 512) : blend t mk Wm Wt bt (ix2 s d) = blendAt t mk Wm Wt bt s d := rfl

end Cert.Blend

end
-- ==== Proof.SlabValue.lean ====
/-
  What one grid point's body leaves in the output's staging block, as ONE function of the point's five input
  blocks. The block has 4096 rows; the body writes it in eight slabs of 512 rows, slab `k` from columns
  `512 k … 512 k + 511` of the time block and of the marker block, and every slab is the same chunk function. So
  entry `(r, q)` of the block is

      ( wm[marker r, q] + (t r · wt[q] + bt[q]) ) · [t r ≥ 0]

  for the resident table `wm`, slope row `wt` and offset row `bt` (all three already halved by the host), provided
  every marker of the block is a column number. The slabs tile the block, so the value at an index is the value
  of the slab that covers it.
-/
import proofs.«403749_j61864708932005_3_alg».proof.Proof.Gen.KernelIdeal.Frame
import proofs.«403749_j61864708932005_3_alg».proof.Proof.ChunkRows
import proofs.«403749_j61864708932005_3_alg».proof.Proof.Blend
import Idealize.ShloMosaic.Lib.Pipeline.Value
import Idealize.ShloMosaic.Lib.ValueIdx

set_option maxRecDepth 16384

noncomputable section

namespace Cert.KernelIdeal.Slab

open Cert.KernelIdeal Cert.KernelIdeal.Gen Cert.KernelIdeal.Chunk
open Idealize.ShloMosaic Idealize.ShloMosaic.TcCoe Idealize.ShloMosaic.Tactic Idealize.ShloMosaic.ValueIdx Idealize.SL.Sem

theorem zeros2 : (![0, 0] : Fin 2 → Nat) = fun _ => 0 := funext fun a => by fin_cases a <;> rfl

/-- Entry `(r, q)` of the block, of the point's input blocks. -/
def blockAt (x0 : Vec Ideal S1x4096 .f32) (x1 : Vec Ideal S1x4096 .i32) (x2 : Vec Ideal S1000x512 .bf16) (x3 x4 : Vec Ideal S1x512 .f32) (r : Fin 4096) (q : Fin 512) : EReal :=
  (x2 (ix2 (Cert.Blend.col (x1 (ix2 (0 : Fin 1) r))) q) + (x0 (ix2 (0 : Fin 1) r) * x3 (ix2 (0 : Fin 1) q) + x4 (ix2 (0 : Fin 1) q)))
    * (if (0 : EReal) ≤ x0 (ix2 (0 : Fin 1) r) then 1 else 0)

/-- The block as an array. -/
def blockVal (x0 : Vec Ideal S1x4096 .f32) (x1 : Vec Ideal S1x4096 .i32) (x2 : Vec Ideal S1000x512 .bf16) (x3 x4 : Vec Ideal S1x512 .f32) : Vec Ideal S4096x512 .f32 :=
  fun y => blockAt x0 x1 x2 x3 x4 (y 0) (y 1)

/-- Column `p` of the 512-column slice at offset `o` of a one-row block is column `o + p` of the block. -/
theorem ld_slice {e : EltTy} (x : Vec Ideal S1x4096 e) (o : Nat)
    (inb : ∀ a, (![0, o] : Fin 2 → Nat) a + S1x512.size a ≤ S1x4096.size a) (p : Fin 512) (h : o + p.val < 4096) :
    View.ld x (Rect.unit (s := S1x4096) ![0, o] S1x512.size inb) (ix2 (0 : Fin 1) p) = x (ix2 (0 : Fin 1) ⟨o + p.val, h⟩) := by
  show x ((Rect.unit (s := S1x4096) ![0, o] S1x512.size inb).emb (ix2 (0 : Fin 1) p)) = _
  congr 1
  funext a
  apply Fin.ext
  match a with
  | ⟨0, _⟩ => show 0 + 1 * 0 = 0; rfl
  | ⟨1, _⟩ => show o + 1 * p.val = o + p.val; omega

/-- Entry `(p, q)` of the slab at row offset `o` is entry `(o + p, q)` of the block. -/
theorem blockVal_emb (x0 : Vec Ideal S1x4096 .f32) (x1 : Vec Ideal S1x4096 .i32) (x2 : Vec Ideal S1000x512 .bf16) (x3 x4 : Vec Ideal S1x512 .f32) (o : Nat)
    (inb : ∀ a, (![o, 0] : Fin 2 → Nat) a + S512x512.size a ≤ S4096x512.size a) (p q : Fin 512) (h : o + p.val < 4096) :
    blockAt x0 x1 x2 x3 x4 ⟨o + p.val, h⟩ q
      = blockVal x0 x1 x2 x3 x4 ((Rect.unit (s := S4096x512) ![o, 0] S512x512.size inb).emb (ix2 p q)) := by
  symm
  unfold blockVal
  congr 1
  · apply Fin.ext; show o + 1 * p.val = o + p.val; omega
  · apply Fin.ext; show 0 + 1 * q.val = q.val; omega

/-- The chunk function on the slab at row offset `o`: its slices are columns `o …` of the time and marker blocks,
    its resident operands the table and the two rows. -/
theorem slab_entry (x0 : Vec Ideal S1x4096 .f32) (x1 : Vec Ideal S1x4096 .i32) (x2 : Vec Ideal S1000x512 .bf16) (x3 x4 : Vec Ideal S1x512 .f32)
    (hx1 : ∀ j : Fin 4096, (x1 (ix2 (0 : Fin 1) j) : BitVec 32).toNat < 1000) (o : Nat) (ho : o + 512 ≤ 4096)
    (wm : FVec Ideal S1000x512 .bf16) (wt bt : FVec Ideal S512x512 .f32) (tc : Vec Ideal S1x512 .f32) (mc : IVec S1x512 32)
    (hwm : ∀ (k : Fin 1000) (q : Fin 512), wm (ix2 k q) = x2 (ix2 k q))
    (hwt : ∀ p q : Fin 512, wt (ix2 p q) = x3 (ix2 (0 : Fin 1) q))
    (hbt : ∀ p q : Fin 512, bt (ix2 p q) = x4 (ix2 (0 : Fin 1) q))
    (htc : ∀ p : Fin 512, tc (ix2 (0 : Fin 1) p) = x0 (ix2 (0 : Fin 1) ⟨o + p.val, by have := p.isLt; omega⟩))
    (hmc : ∀ p : Fin 512, mc (ix2 (0 : Fin 1) p) = x1 (ix2 (0 : Fin 1) ⟨o + p.val, by have := p.isLt; omega⟩))
    (p q : Fin 512) :
    k0_pay6 (F := Ideal) wm wt bt lanes tc mc (ix2 p q) = blockAt x0 x1 x2 x3 x4 ⟨o + p.val, by have := p.isLt; omega⟩ q := by
  have hm : (mc (ix2 (0 : Fin 1) p)).toNat < 1000 := by rw [hmc]; exact hx1 _
  have e : (⟨(mc (ix2 (0 : Fin 1) p)).toNat, hm⟩ : Fin 1000)
      = Cert.Blend.col (x1 (ix2 (0 : Fin 1) ⟨o + p.val, by have := p.isLt; omega⟩)) := by
    rw [Cert.Blend.col_of_lt _ (hx1 _)]
    exact Fin.ext (congrArg BitVec.toNat (hmc p))
  rw [chunk_apply wm wt bt tc mc p q hm, e, hwm, hwt, hbt, htc]
  rfl

/-- THE BLOCK: what the body's eight stores leave, read back, is `blockVal` of the input blocks. -/
theorem out_eq (c : Dev nD) (i : grid0.Coords) (arg1 : Memref sig .tc .vmem S1x4096 .f32) (harg1 : arg1.IsWhole) (arg2 : Memref sig .tc .vmem S1x4096 .i32) (harg2 : arg2.IsWhole) (arg3 : Memref sig .tc .vmem S1000x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4096x512 .f32) (harg6 : arg6.IsWhole)
    (x0 : Vec Ideal S1x4096 .f32) (x1 : Vec Ideal S1x4096 .i32) (x2 : Vec Ideal S1000x512 .bf16) (x3 x4 : Vec Ideal S1x512 .f32) (hx1 : ∀ j : Fin 4096, (x1 (ix2 (0 : Fin 1) j) : BitVec 32).toNat < 1000) :
    out0_A_5 (F := Ideal) c i arg1 harg1 arg2 harg2 arg3 harg3 arg4 harg4 arg5 harg5 arg6 harg6 x0 x1 x2 x3 x4 = blockVal x0 x1 x2 x3 x4 := by
  funext y
  unfold out0_A_5
  rw [View.read_writes_eq_canon _ _ _ (cover0_A_5 c i arg1 harg1 arg2 harg2 arg3 harg3 arg4 harg4 arg5 harg5 arg6 harg6 x0 x1 x2 x3 x4)]
  refine View.canon_apply_of_pieces (blockVal x0 x1 x2 x3 x4) _ ?_ y (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread,
    View.ld_unit_zero (S := S1000x512) zeros2, View.ld_unit_zero (S := S1x512) zeros2]
  intro pc hpc
  simp only [List.mem_cons, List.not_mem_nil, or_false] at hpc
  rcases hpc with rfl | rfl | rfl | rfl | rfl | rfl | rfl | rfl
  all_goals (intro x; obtain ⟨p, q, rfl⟩ : ∃ (p q : Fin 512), x = ix2 p q := ⟨x 0, x 1, eq_ix2 x⟩)
  · refine (congrFun (eighth_eq _ _ _ _ _ _) (ix2 p q)).trans ?_
    refine (slab_entry x0 x1 x2 x3 x4 hx1 3584 (by omega) _ _ _ _ _ (table_apply x2) (slope_apply x3) (offset_apply x4)
      (fun p' => ld_slice x0 3584 _ p' (by have := p'.isLt; omega)) (fun p' => ld_slice x1 3584 _ p' (by have := p'.isLt; omega)) p q).trans ?_
    exact blockVal_emb x0 x1 x2 x3 x4 3584 (fun a => by fin_cases a <;> decide) p q (by have := p.isLt; omega)
  · refine (congrFun (congrFun (congrFun (congrFun (congrFun (congrFun (congrFun seventh_eq _) _) _) _) _) _) (ix2 p q)).trans ?_
    refine (slab_entry x0 x1 x2 x3 x4 hx1 3072 (by omega) _ _ _ _ _ (table_apply x2) (slope_apply x3) (offset_apply x4)
      (fun p' => ld_slice x0 3072 _ p' (by have := p'.isLt; omega)) (fun p' => ld_slice x1 3072 _ p' (by have := p'.isLt; omega)) p q).trans ?_
    exact blockVal_emb x0 x1 x2 x3 x4 3072 (fun a => by fin_cases a <;> decide) p q (by have := p.isLt; omega)
  · refine (congrFun (congrFun (congrFun (congrFun (congrFun (congrFun (congrFun sixth_eq _) _) _) _) _) _) (ix2 p q)).trans ?_
    refine (slab_entry x0 x1 x2 x3 x4 hx1 2560 (by omega) _ _ _ _ _ (table_apply x2) (slope_apply x3) (offset_apply x4)
      (fun p' => ld_slice x0 2560 _ p' (by have := p'.isLt; omega)) (fun p' => ld_slice x1 2560 _ p' (by have := p'.isLt; omega)) p q).trans ?_
    exact blockVal_emb x0 x1 x2 x3 x4 2560 (fun a => by fin_cases a <;> decide) p q (by have := p.isLt; omega)
  · refine (congrFun (fifth_eq _ _ _ _ _ _) (ix2 p q)).trans ?_
    refine (slab_entry x0 x1 x2 x3 x4 hx1 2048 (by omega) _ _ _ _ _ (table_apply x2) (slope_apply x3) (offset_apply x4)
      (fun p' => ld_slice x0 2048 _ p' (by have := p'.isLt; omega)) (fun p' => ld_slice x1 2048 _ p' (by have := p'.isLt; omega)) p q).trans ?_
    exact blockVal_emb x0 x1 x2 x3 x4 2048 (fun a => by fin_cases a <;> decide) p q (by have := p.isLt; omega)
  · refine (congrFun (congrFun (congrFun (congrFun (congrFun (congrFun (congrFun fourth_eq _) _) _) _) _) _) (ix2 p q)).trans ?_
    refine (slab_entry x0 x1 x2 x3 x4 hx1 1536 (by omega) _ _ _ _ _ (table_apply x2) (slope_apply x3) (offset_apply x4)
      (fun p' => ld_slice x0 1536 _ p' (by have := p'.isLt; omega)) (fun p' => ld_slice x1 1536 _ p' (by have := p'.isLt; omega)) p q).trans ?_
    exact blockVal_emb x0 x1 x2 x3 x4 1536 (fun a => by fin_cases a <;> decide) p q (by have := p.isLt; omega)
  · refine (congrFun (third_eq _ _ _ _ _ _) (ix2 p q)).trans ?_
    refine (slab_entry x0 x1 x2 x3 x4 hx1 1024 (by omega) _ _ _ _ _ (table_apply x2) (slope_apply x3) (offset_apply x4)
      (fun p' => ld_slice x0 1024 _ p' (by have := p'.isLt; omega)) (fun p' => ld_slice x1 1024 _ p' (by have := p'.isLt; omega)) p q).trans ?_
    exact blockVal_emb x0 x1 x2 x3 x4 1024 (fun a => by fin_cases a <;> decide) p q (by have := p.isLt; omega)
  · refine (slab_entry x0 x1 x2 x3 x4 hx1 512 (by omega) _ _ _ _ _ (table_apply x2) (slope_apply x3) (offset_apply x4)
      (fun p' => ld_slice x0 512 _ p' (by have := p'.isLt; omega)) (fun p' => ld_slice x1 512 _ p' (by have := p'.isLt; omega)) p q).trans ?_
    exact blockVal_emb x0 x1 x2 x3 x4 512 (fun a => by fin_cases a <;> decide) p q (by have := p.isLt; omega)
  · refine (congrFun (first_eq _ _ _ _ _) (ix2 p q)).trans ?_
    refine (slab_entry x0 x1 x2 x3 x4 hx1 0 (by omega) _ _ _ _ _ (table_apply x2) (slope_apply x3) (offset_apply x4)
      (fun p' => ld_slice x0 0 _ p' (by have := p'.isLt; omega)) (fun p' => ld_slice x1 0 _ p' (by have := p'.isLt; omega)) p q).trans ?_
    exact blockVal_emb x0 x1 x2 x3 x4 0 (fun a => by fin_cases a <;> decide) p q (by have := p.isLt; omega)

end Cert.KernelIdeal.Slab

end
-- ==== Proof.EntryArrays.lean ====
/-
  What the kernel's region finds in the five arrays its input windows stage, entry by entry at the extended reals:
  the host operations before the region reshape the times to one row, clamp the markers into `[0, 999]` and reshape
  them to one row, transpose the table and scale it by one half (the change of float format is the identity
  here), and scale the slope and the offset by one half and reshape each to one row.
-/
import proofs.«403749_j61864708932005_3_alg».proof.Proof.Gen.KernelIdeal.Frame
import proofs.«403749_j61864708932005_3_alg».proof.Proof.Blend
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Two small facts -/

/-- A scalar (an array of rank zero) broadcast to any shape reads the scalar at every index. -/
theorem bcast_scalar {T : Shape} {α : Type} (h : S_.BroadcastsInDim T ![]) (x : S_.Idx → α) (j : T.Idx) :
    broadcastInDim T ![] h x j = x ix0 :=
  broadcastInDim_apply ![] h x j ix0 (fun a => a.elim0)

/-- A word below 1000, read as a signed number, already lies in `[0, 999]`: the larger of it and 0 is the word, and
    the smaller of that and 999 is the word again. -/
theorem clamp_word (w : BitVec 32) (h : w.toNat < 1000) : IntOp.minsi 999#32 (IntOp.maxsi 0#32 w) = w := by
  have hw : w.toInt = (w.toNat : Int) := by
    rw [BitVec.toInt_eq_toNat_cond, if_pos (by omega)]
  have h0 : (0#32 : BitVec 32).toInt = 0 := by decide
  have h9 : (999#32 : BitVec 32).toInt = 999 := by decide
  have h1 : IntOp.maxsi 0#32 w = w := by
    unfold IntOp.maxsi
    refine if_neg ?_
    simp only [BitVec.slt, decide_eq_true_eq, hw, h0]
    omega
  rw [h1]
  unfold IntOp.minsi
  refine if_neg ?_
  simp only [BitVec.slt, decide_eq_true_eq, hw, h9]
  omega

/-! ## The five arrays -/

/-- The times, as one row. -/
theorem times (c : Dev nD) (j : Fin 131072) :
    (V m c main_v0 : S1x131072.Idx → EReal) (ix2 (0 : Fin 1) j)
      = (m ((c : Thread nD τ).loc main_arg0) : S131072.Idx → EReal) (ix1 j) := by
  -- the one operation that writes this array lays the times out as one row
  have e : (V m c main_v0 : S1x131072.Idx → EReal)
      = shapeCast S1x131072 (m ((c : Thread nD τ).loc main_arg0) : S131072.Idx → EReal) shapeCasts_S131072_S1x131072 := by
    dsimp only [V]
    simp only [hostOps0, hostOps0_1, hostOps0_2, List.flatten_cons, List.flatten_nil, List.append_nil,
      List.cons_append, List.nil_append]
    after_results
    rfl
  refine (congrFun e _).trans ?_
  -- entry `(0, j)` of the row has row-major position `0 · 131072 + j = j`
  exact shapeCast_apply _ _ (ix2 (0 : Fin 1) j) (ix1 j) (by
    rw [Shape.rowMajor_val_two, Shape.rowMajor_val_one]; show j.val = 0 * 131072 + j.val; omega)

/-- The markers, as one row: a marker that is a column number passes the clamp unchanged. -/
theorem markers (c : Dev nD) (j : Fin 131072)
    (h : ((m ((c : Thread nD τ).loc main_arg1) : S131072.Idx → BitVec 32) (ix1 j)).toNat < 1000) :
    (V m c main_v2 : S1x131072.Idx → BitVec 32) (ix2 (0 : Fin 1) j)
      = (m ((c : Thread nD τ).loc main_arg1) : S131072.Idx → BitVec 32) (ix1 j) := by
  -- the markers are raised to at least 0, lowered to at most 999, and laid out as one row
  have e : (V m c main_v2 : S1x131072.Idx → BitVec 32)
      = shapeCast S1x131072
          (minsi (broadcastInDim S131072 ![] bcast_S_S131072 (constantI S_ 32 999#32))
            (maxsi (broadcastInDim S131072 ![] bcast_S_S131072 (constantI S_ 32 0#32))
              (m ((c : Thread nD τ).loc main_arg1) : S131072.Idx → BitVec 32)))
          shapeCasts_S131072_S1x131072 := by
    dsimp only [V]
    simp only [hostOps0, hostOps0_1, hostOps0_2, List.flatten_cons, List.flatten_nil, List.append_nil,
      List.cons_append, List.nil_append]
    after_results
    rfl
  refine (congrFun e _).trans ?_
  refine (shapeCast_apply _ _ (ix2 (0 : Fin 1) j) (ix1 j) (by
    rw [Shape.rowMajor_val_two, Shape.rowMajor_val_one]; show j.val = 0 * 131072 + j.val; omega)).trans ?_
  -- at entry `j` both bounds are the broadcast scalars, and the word is below 1000
  show IntOp.minsi (broadcastInDim S131072 ![] bcast_S_S131072 (constantI S_ 32 999#32) (ix1 j))
      (IntOp.maxsi (broadcastInDim S131072 ![] bcast_S_S131072 (constantI S_ 32 0#32) (ix1 j))
        ((m ((c : Thread nD τ).loc main_arg1) : S131072.Idx → BitVec 32) (ix1 j))) = _
  rw [bcast_scalar, bcast_scalar]
  exact clamp_word _ h

/-- The table, transposed and halved. -/
theorem table (c : Dev nD) (k : Fin 1000) (d : Fin 512) :
    (V m c main_v6 : S1000x512.Idx → EReal) (ix2 k d)
      = Cert.Blend.half * (m ((c : Thread nD τ).loc main_arg2) : S512x1000.Idx → EReal) (ix2 d k) := by
  -- the table is transposed, multiplied entry by entry by the broadcast one half, and its format changed
  have e : (V m c main_v6 : S1000x512.Idx → EReal)
      = truncf .bf16
          (mulf (broadcastInDim S1000x512 ![] bcast_S_S1000x512 (constant (F := Ideal) S_ .f32 0x3F000000#32))
            (transpose S1000x512 [1, 0] (m ((c : Thread nD τ).loc main_arg2) : S512x1000.Idx → EReal)
              transposes_S512x1000_S1000x512_1_0))
          bitsLt_bf16_f32 := by
    dsimp only [V]
    simp only [hostOps0, hostOps0_1, hostOps0_2, List.flatten_cons, List.flatten_nil, List.append_nil,
      List.cons_append, List.nil_append]
    after_results
  refine (congrFun e _).trans ?_
  -- on the extended reals the change of format is the identity and the product is the product of the entries
  show broadcastInDim S1000x512 ![] bcast_S_S1000x512 (constant (F := Ideal) S_ .f32 0x3F000000#32) (ix2 k d)
      * transpose S1000x512 [1, 0] (m ((c : Thread nD τ).loc main_arg2) : S512x1000.Idx → EReal)
          transposes_S512x1000_S1000x512_1_0 (ix2 k d) = _
  -- entry `(k, d)` of the transpose is entry `(d, k)` of the table
  have ht : transpose S1000x512 [1, 0] (m ((c : Thread nD τ).loc main_arg2) : S512x1000.Idx → EReal)
        transposes_S512x1000_S1000x512_1_0 (ix2 k d)
      = (m ((c : Thread nD τ).loc main_arg2) : S512x1000.Idx → EReal) (ix2 d k) :=
    transpose_apply [1, 0] _ transposes_S512x1000_S1000x512_1_0 (ix2 k d) (ix2 d k)
      (fun b => match b with | ⟨0, _⟩ => rfl | ⟨1, _⟩ => rfl)
  rw [ht, bcast_scalar]
  rfl

/-- The slope, halved, as one row. -/
theorem slope (c : Dev nD) (d : Fin 512) :
    (V m c main_v9 : S1x512.Idx → EReal) (ix2 (0 : Fin 1) d)
      = Cert.Blend.half * (m ((c : Thread nD τ).loc main_arg3) : S512.Idx → EReal) (ix1 d) := by
  -- the slope is multiplied entry by entry by the broadcast one half and laid out as one row
  have e : (V m c main_v9 : S1x512.Idx → EReal)
      = shapeCast S1x512
          (mulf (broadcastInDim S512 ![] bcast_S_S512 (constant (F := Ideal) S_ .f32 0x3F000000#32))
            (m ((c : Thread nD τ).loc main_arg3) : S512.Idx → EReal))
          shapeCasts_S512_S1x512 := by
    dsimp only [V]
    simp only [hostOps0, hostOps0_1, hostOps0_2, List.flatten_cons, List.flatten_nil, List.append_nil,
      List.cons_append, List.nil_append]
    after_results
    rfl
  refine (congrFun e _).trans ?_
  refine (shapeCast_apply _ _ (ix2 (0 : Fin 1) d) (ix1 d) (by
    rw [Shape.rowMajor_val_two, Shape.rowMajor_val_one]; show d.val = 0 * 512 + d.val; omega)).trans ?_
  show broadcastInDim S512 ![] bcast_S_S512 (constant (F := Ideal) S_ .f32 0x3F000000#32) (ix1 d)
      * (m ((c : Thread nD τ).loc main_arg3) : S512.Idx → EReal) (ix1 d) = _
  rw [bcast_scalar]
  rfl

/-- The offset, halved, as one row. -/
theorem offset (c : Dev nD) (d : Fin 512) :
    (V m c main_v12 : S1x512.Idx → EReal) (ix2 (0 : Fin 1) d)
      = Cert.Blend.half * (m ((c : Thread nD τ).loc main_arg4) : S512.Idx → EReal) (ix1 d) := by
  -- the offset is multiplied entry by entry by the broadcast one half and laid out as one row
  have e : (V m c main_v12 : S1x512.Idx → EReal)
      = shapeCast S1x512
          (mulf (broadcastInDim S512 ![] bcast_S_S512 (constant (F := Ideal) S_ .f32 0x3F000000#32))
            (m ((c : Thread nD τ).loc main_arg4) : S512.Idx → EReal))
          shapeCasts_S512_S1x512 := by
    dsimp only [V]
    simp only [hostOps0, hostOps0_1, hostOps0_2, List.flatten_cons, List.flatten_nil, List.append_nil,
      List.cons_append, List.nil_append]
    after_results
    rfl
  refine (congrFun e _).trans ?_
  refine (shapeCast_apply _ _ (ix2 (0 : Fin 1) d) (ix1 d) (by
    rw [Shape.rowMajor_val_two, Shape.rowMajor_val_one]; show d.val = 0 * 512 + d.val; omega)).trans ?_
  show broadcastInDim S512 ![] bcast_S_S512 (constant (F := Ideal) S_ .f32 0x3F000000#32) (ix1 d)
      * (m ((c : Thread nD τ).loc main_arg4) : S512.Idx → EReal) (ix1 d) = _
  rw [bcast_scalar]
  rfl

end Cert.KernelIdeal.Entry

end
-- ==== Proof.BlendAlgebra.lean ====
/-
  The one law that joins the two programs, on real numbers. The kernel halves the table, the slope and the offset
  before the grid runs and multiplies the row by the indicator of `t ≥ 0`; the reference halves the sums and
  selects zero where `t < 0`:

      ( ½ w + ( t (½ a) + ½ b ) ) · [t ≥ 0]   =   if t < 0 then 0 else ½ w + ½ ( t a + b ).

  For `t ≥ 0` this is distributivity of the product over the sum, which holds for real numbers (it fails on the
  extended reals only where an infinity meets its opposite, which is why the inputs are taken finite); for `t < 0`
  both sides are zero.
-/
import proofs.«403749_j61864708932005_3_alg».proof.Proof.Blend
import Mathlib.Data.EReal.Operations
import Mathlib.Tactic.Ring
import Mathlib.Tactic.NormNum

noncomputable section

namespace Cert.Blend

open Idealize.ShloMosaic

/-- The word `0x3F000000` is the real number one half. -/
theorem half_eq : half = (((1 : ℝ) / 2 : ℝ) : EReal) := by
  show Ideal.ofBits .f32 0x3F000000#32 = _
  simp [Ideal.ofBits, Ideal.ieee, -EReal.coe_mul]; norm_num

/-- The kernel's arrangement of an entry equals the blend's, for real table entry `w`, time `t`, slope `a`, offset `b`. -/
theorem masked_eq_select (w t a b : ℝ) :
    (half * (w : EReal) + ((t : EReal) * (half * (a : EReal)) + half * (b : EReal)))
        * (if (0 : EReal) ≤ (t : EReal) then 1 else 0)
      = if (t : EReal) < 0 then 0 else half * (w : EReal) + half * ((t : EReal) * (a : EReal) + (b : EReal)) := by
  rw [half_eq]
  by_cases ht : (0 : ℝ) ≤ t
  · have h1 : (0 : EReal) ≤ (t : EReal) := EReal.coe_nonneg.mpr ht
    have h2 : ¬ ((t : EReal) < 0) := not_lt.mpr h1
    rw [if_pos h1, if_neg h2, mul_one]
    norm_cast
    ring
  · have h1 : ¬ (0 : EReal) ≤ (t : EReal) := fun h => ht (EReal.coe_nonneg.mp h)
    have h2 : (t : EReal) < 0 := not_le.mp h1
    rw [if_neg h1, if_pos h2, mul_zero]

end Cert.Blend

end
-- ==== Proof.KernelValue.lean ====
/-
  The kernel's result array, as one function of its argument arrays: the blend.

  The grid has 32 points; point `t` stages columns `4096 t … 4096 t + 4095` of the (one-row) times and markers,
  the whole halved table and the two halved rows, and writes back rows `4096 t … 4096 t + 4095` of the result.
  What it writes back is the body's block (one function of the input blocks), and each input block is a window
  of an array the host operations made from the arguments; so entry `(r, q)` of point `t`'s block is

      ( ½ W_m[q, marker s] + ( t_s (½ W_t[q]) + ½ b_t[q] ) ) · [t_s ≥ 0],        s = 4096 t + r,

  which for finite inputs is the blend's entry `(s, q)` (the one law of real arithmetic that joins the two
  arrangements). The 32 row blocks tile the result array, so the array ends holding the blend.
-/
import proofs.«403749_j61864708932005_3_alg».proof.Proof.Gen.KernelIdeal.Value
import proofs.«403749_j61864708932005_3_alg».proof.Proof.SlabValue
import proofs.«403749_j61864708932005_3_alg».proof.Proof.EntryArrays
import proofs.«403749_j61864708932005_3_alg».proof.Proof.BlendAlgebra
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Value Cert.KernelIdeal.Slab
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments, and what is assumed of them -/

abbrev times (c : Dev nD) : FVec Ideal S131072 .f32 := m ((c : Thread nD τ).loc main_arg0)
abbrev markers (c : Dev nD) : IVec S131072 32 := m ((c : Thread nD τ).loc main_arg1)
abbrev table (c : Dev nD) : FVec Ideal S512x1000 .f32 := m ((c : Thread nD τ).loc main_arg2)
abbrev slope (c : Dev nD) : FVec Ideal S512 .f32 := m ((c : Thread nD τ).loc main_arg3)
abbrev offset (c : Dev nD) : FVec Ideal S512 .f32 := m ((c : Thread nD τ).loc main_arg4)

/-- What the precondition gives on core `c`: every marker a column number, every float entry a real number. -/
structure Admissible (c : Dev nD) : Prop where
  marker_lt : ∀ i : S131072.Idx, (markers m c i).toNat < 1000
  times_real : ∀ i : S131072.Idx, ∃ r : ℝ, times m c i = (r : EReal)
  table_real : ∀ i : S512x1000.Idx, ∃ r : ℝ, table m c i = (r : EReal)
  slope_real : ∀ i : S512.Idx, ∃ r : ℝ, slope m c i = (r : EReal)
  offset_real : ∀ i : S512.Idx, ∃ r : ℝ, offset m c i = (r : EReal)

/-- The blend of core `c`'s arguments. -/
abbrev goal (c : Dev nD) : FVec Ideal S131072x512 .f32 :=
  Cert.Blend.blend (times m c) (markers m c) (table m c) (slope m c) (offset m c)

/-! ## The windows' blocks as rows and columns of the arguments -/

/-- The index maps, decided over the 32 points: the times and the markers move along their one row with the
    point, the table and the two rows stay, the result moves down its rows. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points : cfg0.N = 32 := N_0

/-- Row `r` of point `t`'s block is row `4096 t + r` of the array. -/
def row (t : Fin cfg0.N) (r : Fin 4096) : Fin 131072 :=
  ⟨4096 * t.val + r.val, by have := t.isLt; have := r.isLt; have := points; omega⟩

abbrev tblk (c : Dev nD) (t : Fin cfg0.N) : Vec Ideal S1x4096 .f32 := iblk m c 0 t
abbrev mblk (c : Dev nD) (t : Fin cfg0.N) : Vec Ideal S1x4096 .i32 := iblk m c 1 t
abbrev wblk (c : Dev nD) (t : Fin cfg0.N) : Vec Ideal S1000x512 .bf16 := iblk m c 2 t
abbrev sblk (c : Dev nD) (t : Fin cfg0.N) : Vec Ideal S1x512 .f32 := iblk m c 3 t
abbrev oblk (c : Dev nD) (t : Fin cfg0.N) : Vec Ideal S1x512 .f32 := iblk m c 4 t

theorem tblk_apply (c : Dev nD) (t : Fin cfg0.N) (r : Fin 4096) :
    tblk m c t (ix2 (0 : Fin 1) r) = times m c (ix1 (row t r)) := by
  obtain ⟨e0, e1, -⟩ := idx_facts t
  refine Eq.trans ?_ (Entry.times m c (row t r))
  show ((cfg0.win 0).blk t).view.read (Elt Ideal) (V m c (Pipeline.arrRef spec0 0)) (ix2 (0 : Fin 1) r) = _
  rw [View.read_apply]
  show V m c main_v0 (((cfg0.win 0).blk t).view.emb (ix2 (0 : Fin 1) r)) = V m c main_v0 (ix2 (0 : Fin 1) (row t r))
  congr 1
  funext a
  apply Fin.ext
  match a with
  | ⟨0, _⟩ => show win0_0.index t (0 : Fin 2) * 1 + 1 * 0 = 0; omega
  | ⟨1, _⟩ => show win0_0.index t (1 : Fin 2) * 4096 + 1 * r.val = 4096 * t.val + r.val; omega

theorem mblk_apply (c : Dev nD) (t : Fin cfg0.N) (r : Fin 4096) (h : (markers m c (ix1 (row t r))).toNat < 1000) :
    mblk m c t (ix2 (0 : Fin 1) r) = markers m c (ix1 (row t r)) := by
  obtain ⟨-, -, e0, e1, -⟩ := idx_facts t
  refine Eq.trans ?_ (Entry.markers m c (row t r) h)
  show ((cfg0.win 1).blk t).view.read (Elt Ideal) (V m c (Pipeline.arrRef spec0 1)) (ix2 (0 : Fin 1) r) = _
  rw [View.read_apply]
  show V m c main_v2 (((cfg0.win 1).blk t).view.emb (ix2 (0 : Fin 1) r)) = V m c main_v2 (ix2 (0 : Fin 1) (row t r))
  congr 1
  funext a
  apply Fin.ext
  match a with
  | ⟨0, _⟩ => show win0_1.index t (0 : Fin 2) * 1 + 1 * 0 = 0; omega
  | ⟨1, _⟩ => show win0_1.index t (1 : Fin 2) * 4096 + 1 * r.val = 4096 * t.val + r.val; omega

theorem wblk_apply (c : Dev nD) (t : Fin cfg0.N) (k : Fin 1000) (q : Fin 512) :
    wblk m c t (ix2 k q) = Cert.Blend.half * table m c (ix2 q k) := by
  obtain ⟨-, -, -, -, e0, e1, -⟩ := idx_facts t
  refine Eq.trans ?_ (Entry.table m c k q)
  show ((cfg0.win 2).blk t).view.read (Elt Ideal) (V m c (Pipeline.arrRef spec0 2)) (ix2 k q) = _
  rw [View.read_apply]
  show V m c main_v6 (((cfg0.win 2).blk t).view.emb (ix2 k q)) = V m c main_v6 (ix2 k q)
  congr 1
  funext a
  apply Fin.ext
  match a with
  | ⟨0, _⟩ => show win0_2.index t (0 : Fin 2) * 1000 + 1 * k.val = k.val; omega
  | ⟨1, _⟩ => show win0_2.index t (1 : Fin 2) * 512 + 1 * q.val = q.val; omega

theorem sblk_apply (c : Dev nD) (t : Fin cfg0.N) (q : Fin 512) :
    sblk m c t (ix2 (0 : Fin 1) q) = Cert.Blend.half * slope m c (ix1 q) := by
  obtain ⟨-, -, -, -, -, -, e0, e1, -⟩ := idx_facts t
  refine Eq.trans ?_ (Entry.slope m c q)
  show ((cfg0.win 3).blk t).view.read (Elt Ideal) (V m c (Pipeline.arrRef spec0 3)) (ix2 (0 : Fin 1) q) = _
  rw [View.read_apply]
  show V m c main_v9 (((cfg0.win 3).blk t).view.emb (ix2 (0 : Fin 1) q)) = V m c main_v9 (ix2 (0 : Fin 1) q)
  congr 1
  funext a
  apply Fin.ext
  match a with
  | ⟨0, _⟩ => show win0_3.index t (0 : Fin 2) * 1 + 1 * 0 = 0; omega
  | ⟨1, _⟩ => show win0_3.index t (1 : Fin 2) * 512 + 1 * q.val = q.val; omega

theorem oblk_apply (c : Dev nD) (t : Fin cfg0.N) (q : Fin 512) :
    oblk m c t (ix2 (0 : Fin 1) q) = Cert.Blend.half * offset m c (ix1 q) := by
  obtain ⟨-, -, -, -, -, -, -, -, e0, e1, -⟩ := idx_facts t
  refine Eq.trans ?_ (Entry.offset m c q)
  show ((cfg0.win 4).blk t).view.read (Elt Ideal) (V m c (Pipeline.arrRef spec0 4)) (ix2 (0 : Fin 1) q) = _
  rw [View.read_apply]
  show V m c main_v12 (((cfg0.win 4).blk t).view.emb (ix2 (0 : Fin 1) q)) = V m c main_v12 (ix2 (0 : Fin 1) q)
  congr 1
  funext a
  apply Fin.ext
  match a with
  | ⟨0, _⟩ => show win0_4.index t (0 : Fin 2) * 1 + 1 * 0 = 0; omega
  | ⟨1, _⟩ => show win0_4.index t (1 : Fin 2) * 512 + 1 * q.val = q.val; omega

/-! ## What a point writes back, the cover, the array -/

/-- Entry `(r, q)` of point `t`'s block of the result array is entry `(4096 t + r, q)` of the array. -/
theorem out_emb (t : Fin cfg0.N) (r : Fin 4096) (q : Fin 512) :
    ((cfg0.win 5).blk t).view.emb (ix2 r q) = ix2 (row t r) q := by
  obtain ⟨-, -, -, -, -, -, -, -, -, -, e0, e1⟩ := idx_facts t
  funext a
  apply Fin.ext
  match a with
  | ⟨0, _⟩ => show win0_5.index t (0 : Fin 2) * 4096 + 1 * r.val = 4096 * t.val + r.val; omega
  | ⟨1, _⟩ => show win0_5.index t (1 : Fin 2) * 512 + 1 * q.val = q.val; omega

/-- WHAT POINT `t` WRITES BACK is block `t` of the blend of the arguments. -/
theorem flushed_eq (c : Dev nD) (H : Admissible m c) (t : Fin cfg0.N) :
    (dats m 0 c).flushed 5 t = ((cfg0.win 5).blk t).view.read (Elt Ideal) (goal m c) := by
  have hx1 : ∀ j : Fin 4096, (mblk m c t (ix2 (0 : Fin 1) j) : BitVec 32).toNat < 1000 := fun j => by
    rw [mblk_apply m c t j (H.marker_lt _)]; exact H.marker_lt _
  rw [flushed5_A, Slab.out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (tblk m c t) (mblk m c t) (wblk m c t) (sblk m c t) (oblk m c t) hx1]
  funext y
  obtain ⟨r, q, rfl⟩ : ∃ (r : Fin 4096) (q : Fin 512), y = ix2 r q := ⟨y 0, y 1, eq_ix2 y⟩
  rw [View.read_apply, out_emb]
  show blockAt (tblk m c t) (mblk m c t) (wblk m c t) (sblk m c t) (oblk m c t) r q
    = Cert.Blend.blendAt (times m c) (markers m c) (table m c) (slope m c) (offset m c) (row t r) q
  unfold blockAt Cert.Blend.blendAt
  rw [tblk_apply, mblk_apply m c t r (H.marker_lt _), wblk_apply, sblk_apply, oblk_apply]
  obtain ⟨tr, ht⟩ := H.times_real (ix1 (row t r))
  obtain ⟨wr, hw⟩ := H.table_real (ix2 q (Cert.Blend.col (markers m c (ix1 (row t r)))))
  obtain ⟨ar, ha⟩ := H.slope_real (ix1 q)
  obtain ⟨br, hb⟩ := H.offset_real (ix1 q)
  rw [ht, hw, ha, hb]
  exact Cert.Blend.masked_eq_select wr tr ar br

/-- An index of the result array is in point `t`'s block iff each coordinate is in the block's range. -/
theorem mem_blk (t : Fin cfg0.N) (i : S131072x512.Idx) :
    i ∈ ((cfg0.win 5).blk t).view.set ↔ ∀ a : Fin 2, win0_5.index t a * S4096x512.size a ≤ (i a).val ∧ (i a).val < win0_5.index t a * S4096x512.size a + S4096x512.size a := by
  show i ∈ ((View.whole main_v13).slice (win0_5.rect t)).set ↔ _
  rw [View.set_slice_whole, Rect.mem_set_unit]
  exact Iff.rfl

/-- Every row of the result array is in the block of the point `row / 4096`. -/
theorem cover (i : S131072x512.Idx) :
    ∃ t : Fin cfg0.N, (cfg0.win 5).flush t = true ∧ i ∈ ((cfg0.win 5).blk t).view.set := by
  have hN := points
  have hi0 : (i 0).val < 131072 := (i 0).isLt
  have hi1 : (i 1).val < 512 := (i 1).isLt
  have ht : (i 0).val / 4096 < cfg0.N := by omega
  obtain ⟨-, -, -, -, -, -, -, -, -, -, e0, e1⟩ := idx_facts ⟨(i 0).val / 4096, ht⟩
  refine ⟨⟨(i 0).val / 4096, ht⟩, flush0_5 _, ?_⟩
  rw [mem_blk]
  intro a
  match a with
  | ⟨0, _⟩ =>
    show win0_5.index ⟨(i 0).val / 4096, ht⟩ (0 : Fin 2) * 4096 ≤ (i 0).val ∧ (i 0).val < win0_5.index ⟨(i 0).val / 4096, ht⟩ (0 : Fin 2) * 4096 + 4096
    have e0' : win0_5.index ⟨(i 0).val / 4096, ht⟩ (0 : Fin 2) = (i 0).val / 4096 := e0
    omega
  | ⟨1, _⟩ =>
    show win0_5.index ⟨(i 0).val / 4096, ht⟩ (1 : Fin 2) * 512 ≤ (i 1).val ∧ (i 1).val < win0_5.index ⟨(i 0).val / 4096, ht⟩ (1 : Fin 2) * 512 + 512
    omega

/-- THE ARRAY after the run is the blend of the arguments. -/
theorem final (c : Dev nD) (H : Admissible m c) : (dats m 0 c).arrAt 5 cfg0.N = goal m c :=
  (dats m 0 c).arrAt_eq_of_cover 5 (goal m c) (fun t _ => flushed_eq m c H t) cover

/-- The kernel's run, read: the result array at the blend of the arguments, the arguments unchanged. -/
theorem run (H : ∀ c : Dev nD, Admissible m c) :
    θ_run defs (onTc (τ := τ) (main (F := Ideal))) ⟨m, fun _ => 0, ρ⟩ fun r => ∀ c : Dev nD,
      r.2.mem ((c : Thread nD τ).loc main_v13) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (H c)), (h c).2⟩) (run_blocks m ρ)

end Cert.KernelIdeal.Result

end
-- ==== Proof.RefTerm.lean ====
/-
  The reference's result as ONE pure term of its five argument arrays: its host operations composed in program
  order, at any float instance.

  `takeRows tab mk` is `jnp.take(tab, mk, axis=0)` in jax's default mode: a negative index has the row count 1000
  added, the row is gathered (the gather clamps its start index), and a row whose adjusted index is outside
  `[0, 999]` is replaced by the not-a-number word. `refOut` transposes the table, takes rows, forms
  `t ⊗ W_t + b_t`, blends the two with weight one half each, and selects zero where `t < 0`.
-/
import proofs.«403749_j61864708932005_3_alg».proof.Proof.Gen.ReferenceIdeal

noncomputable section

namespace Cert.ReferenceIdeal.Hand

open Cert.ReferenceIdeal Idealize.ShloMosaic
open Facts₀ Facts

variable {F : FTy → Type} [FloatOps F]

/-- `jnp.take(tab, mk, axis=0)`, the operations of the outlined function in order. -/
def takeRows (tab : FVec F S1000x512 .f32) (mk : IVec S131072 32) : FVec F S131072x512 .f32 :=
  let c : IVec S_ 32 := constantI S_ 32 0#32
  let v0 : IVec S131072 32 := broadcastInDim S131072 ![] bcast_S_S131072 c
  let v1 : IVec S131072 1 := cmpi .slt mk v0
  let c_0 : IVec S_ 32 := constantI S_ 32 1000#32
  let v2 : IVec S131072 32 := broadcastInDim S131072 ![] bcast_S_S131072 c_0
  let v3 : IVec S131072 32 := addi mk v2
  let v4 : IVec S131072 32 := select v1 v3 mk
  let v5 : IVec S131072x1 32 := broadcastInDim S131072x1 ![0] bcast_S131072_S131072x1_0 v4
  let c_1 : IVec S1 32 := constantI S1 32 999#32
  let c_2 : IVec S_ 32 := constantI S_ 32 0#32
  let v6 : IVec S131072x1 32 := broadcastInDim S131072x1 ![] bcast_S_S131072x1 c_2
  let v7 : IVec S131072x1 1 := cmpi .sge v5 v6
  let v8 : IVec S1x1 32 := broadcastInDim S1x1 ![1] bcast_S1_S1x1_1 c_1
  let v9 : IVec S131072x1 32 := broadcastInDim S131072x1 ![0, 1] bcast_S1x1_S131072x1_0_1 v8
  let v10 : IVec S131072x1 1 := cmpi .sle v5 v9
  let v11 : IVec S131072x1 1 := andi v7 v10
  let c_3 : IVec S_ 1 := constantI S_ 1 1#1
  let v12 : IVec S131072 1 := Host.reduce IntOp.andi v11 c_3 reducesTo_S131072x1_S131072_d1 h_S_
  let v13 : FVec F S131072x512 .f32 := Host.gather gather_S1000x512_S131072x1_S131072x512_1_0_n_n_0_1_1512 tab v5
  let v14 : IVec S131072x512 1 := broadcastInDim S131072x512 ![0] bcast_S131072_S131072x512_0 v12
  let cst : FVec F S_ .f32 := constant S_ .f32 0x7FC00000#32
  let v15 : FVec F S131072x512 .f32 := broadcastInDim S131072x512 ![] bcast_S_S131072x512 cst
  select v14 v13 v15

/-- The reference's result array of its argument arrays. -/
def refOut (t : FVec F S131072 .f32) (mk : IVec S131072 32) (Wm : FVec F S512x1000 .f32) (Wt bt : FVec F S512 .f32) :
    FVec F S131072x512 .f32 :=
  let v0 : FVec F S1000x512 .f32 := transpose S1000x512 [1, 0] Wm transposes_S512x1000_S1000x512_1_0
  let v1 : FVec F S131072x512 .f32 := takeRows v0 mk
  let v2 : FVec F S131072x1 .f32 := broadcastInDim S131072x1 ![0] bcast_S131072_S131072x1_0 t
  let v3 : FVec F S1x512 .f32 := broadcastInDim S1x512 ![1] bcast_S512_S1x512_1 Wt
  let v4 : FVec F S131072x512 .f32 := broadcastInDim S131072x512 ![0, 1] bcast_S131072x1_S131072x512_0_1 v2
  let v5 : FVec F S131072x512 .f32 := broadcastInDim S131072x512 ![0, 1] bcast_S1x512_S131072x512_0_1 v3
  let v6 : FVec F S131072x512 .f32 := mulf v4 v5
  let v7 : FVec F S1x512 .f32 := broadcastInDim S1x512 ![1] bcast_S512_S1x512_1 bt
  let v8 : FVec F S131072x512 .f32 := broadcastInDim S131072x512 ![0, 1] bcast_S1x512_S131072x512_0_1 v7
  let v9 : FVec F S131072x512 .f32 := addf v6 v8
  let cst : FVec F S_ .f32 := constant S_ .f32 0x3F000000#32
  let v10 : FVec F S131072x512 .f32 := broadcastInDim S131072x512 ![] bcast_S_S131072x512 cst
  let v11 : FVec F S131072x512 .f32 := mulf v10 v1
  let cst_0 : FVec F S_ .f32 := constant S_ .f32 0x3F000000#32
  let v12 : FVec F S131072x512 .f32 := broadcastInDim S131072x512 ![] bcast_S_S131072x512 cst_0
  let v13 : FVec F S131072x512 .f32 := mulf v12 v9
  let v14 : FVec F S131072x512 .f32 := addf v11 v13
  let v15 : FVec F S131072x1 .f32 := broadcastInDim S131072x1 ![0] bcast_S131072_S131072x1_0 t
  let cst_1 : FVec F S_ .f32 := constant S_ .f32 0x00000000#32
  let v16 : FVec F S131072x1 .f32 := broadcastInDim S131072x1 ![] bcast_S_S131072x1 cst_1
  let v17 : IVec S131072x1 1 := cmpf .olt v15 v16
  let cst_2 : FVec F S_ .f32 := constant S_ .f32 0x00000000#32
  let w0 : IVec S131072x512 1 := broadcastInDim S131072x512 ![0, 1] bcast_S131072x1_S131072x512_0_1 v17
  let w1 : FVec F S131072x512 .f32 := broadcastInDim S131072x512 ![] bcast_S_S131072x512 cst_2
  select w0 w1 v14

end Cert.ReferenceIdeal.Hand

end
-- ==== Proof.RefRun.lean ====
/-
  The reference program's run, read back: its @main is a straight line of host operations (the two outlined
  functions' operations at their call sites), so every weakly fair execution terminates with the result buffer at
  the operations' composed term `Hand.refOut` of the argument arrays, and the arguments unchanged.

  The line has 47 operations: the table's transposition; the 23 of `jnp.take` (22 of its own and the select of the
  `where` it calls) over the buffers its call names; @main's 20 between the calls; and the 3 of the final `where`.
  Each operation writes one buffer of its own and reads buffers written before it, so what a buffer holds at the end
  is the composition of the operations on the path to it: at the result buffer that composition is `refOut`, term
  for term; an argument buffer is written by no operation.
-/
import proofs.«403749_j61864708932005_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The line and its fold -/

namespace Line

/-- @main's 47 operations in program order, each call replaced by the callee's operations over the buffers the
    call names: `jnp.take` after the transposition (its inner `where` is the one select writing the adjusted
    index), the final `where` last (two broadcasts and the select writing the result). -/
abbrev ops : List (HloOp τ sig (Elt F)) :=
  [ unary main_arg2 main_v0 ((transpose S1000x512 [1, 0] · transposes_S512x1000_S1000x512_1_0) : (⟨S512x1000, .f32⟩ : BufTy).Contents (Elt F) → (⟨S1000x512, .f32⟩ : BufTy).Contents (Elt F)),
    TRef.nullary main_call0.c (constantI S_ 32 0#32),
    TRef.unary main_call0.c main_call0.v0 (broadcastInDim S131072 ![] bcast_S_S131072),
    TRef.binary (.of main_arg1 : TRef sig ⟨S131072, .i32⟩) main_call0.v0 main_call0.v1 (cmpi .slt),
    TRef.nullary main_call0.c_0 (constantI S_ 32 1000#32),
    TRef.unary main_call0.c_0 main_call0.v2 (broadcastInDim S131072 ![] bcast_S_S131072),
    TRef.binary (.of main_arg1 : TRef sig ⟨S131072, .i32⟩) main_call0.v2 main_call0.v3 addi,
    TRef.ternary main_call0.v1 main_call0.v3 (.of main_arg1 : TRef sig ⟨S131072, .i32⟩) main_call0.call0.v0 select,
    TRef.unary main_call0.call0.v0 main_call0.v5 (broadcastInDim S131072x1 ![0] bcast_S131072_S131072x1_0),
    TRef.nullary main_call0.c_1 (constantI S1 32 999#32),
    TRef.nullary main_call0.c_2 (constantI S_ 32 0#32),
    TRef.unary main_call0.c_2 main_call0.v6 (broadcastInDim S131072x1 ![] bcast_S_S131072x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S131072x1 ![0, 1] bcast_S1x1_S131072x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S131072x1_S131072_d1 h_S_),
    TRef.binary (.of main_v0 : TRef sig ⟨S1000x512, .f32⟩) main_call0.v5 main_call0.v13 (fun x i => Host.gather gather_S1000x512_S131072x1_S131072x512_1_0_n_n_0_1_1512 x i),
    TRef.unary main_call0.v12 main_call0.v14 (broadcastInDim S131072x512 ![0] bcast_S131072_S131072x512_0),
    TRef.nullary main_call0.cst (constant S_ .f32 0x7FC00000#32),
    TRef.unary main_call0.cst main_call0.v15 (broadcastInDim S131072x512 ![] bcast_S_S131072x512),
    TRef.ternary main_call0.v14 main_call0.v13 main_call0.v15 main_call0.v16 select,
    unary main_arg0 main_v2 (broadcastInDim S131072x1 ![0] bcast_S131072_S131072x1_0 : ((⟨S131072, .f32⟩ : BufTy).Contents (Elt F) → (⟨S131072x1, .f32⟩ : BufTy).Contents (Elt F))),
    unary main_arg3 main_v3 (broadcastInDim S1x512 ![1] bcast_S512_S1x512_1 : ((⟨S512, .f32⟩ : BufTy).Contents (Elt F) → (⟨S1x512, .f32⟩ : BufTy).Contents (Elt F))),
    unary main_v2 main_v4 (broadcastInDim S131072x512 ![0, 1] bcast_S131072x1_S131072x512_0_1 : ((⟨S131072x1, .f32⟩ : BufTy).Contents (Elt F) → (⟨S131072x512, .f32⟩ : BufTy).Contents (Elt F))),
    unary main_v3 main_v5 (broadcastInDim S131072x512 ![0, 1] bcast_S1x512_S131072x512_0_1 : ((⟨S1x512, .f32⟩ : BufTy).Contents (Elt F) → (⟨S131072x512, .f32⟩ : BufTy).Contents (Elt F))),
    binary main_v4 main_v5 main_v6 (mulf : ((⟨S131072x512, .f32⟩ : BufTy).Contents (Elt F) → (⟨S131072x512, .f32⟩ : BufTy).Contents (Elt F) → (⟨S131072x512, .f32⟩ : BufTy).Contents (Elt F))),
    unary main_arg4 main_v7 (broadcastInDim S1x512 ![1] bcast_S512_S1x512_1 : ((⟨S512, .f32⟩ : BufTy).Contents (Elt F) → (⟨S1x512, .f32⟩ : BufTy).Contents (Elt F))),
    unary main_v7 main_v8 (broadcastInDim S131072x512 ![0, 1] bcast_S1x512_S131072x512_0_1 : ((⟨S1x512, .f32⟩ : BufTy).Contents (Elt F) → (⟨S131072x512, .f32⟩ : BufTy).Contents (Elt F))),
    binary main_v6 main_v8 main_v9 (addf : ((⟨S131072x512, .f32⟩ : BufTy).Contents (Elt F) → (⟨S131072x512, .f32⟩ : BufTy).Contents (Elt F) → (⟨S131072x512, .f32⟩ : BufTy).Contents (Elt F))),
    nullary main_cst (constant S_ .f32 0x3F000000#32),
    unary main_cst main_v10 (broadcastInDim S131072x512 ![] bcast_S_S131072x512 : ((⟨S_, .f32⟩ : BufTy).Contents (Elt F) → (⟨S131072x512, .f32⟩ : BufTy).Contents (Elt F))),
    binary main_v10 main_v1 main_v11 (mulf : ((⟨S131072x512, .f32⟩ : BufTy).Contents (Elt F) → (⟨S131072x512, .f32⟩ : BufTy).Contents (Elt F) → (⟨S131072x512, .f32⟩ : BufTy).Contents (Elt F))),
    nullary main_cst_0 (constant S_ .f32 0x3F000000#32),
    unary main_cst_0 main_v12 (broadcastInDim S131072x512 ![] bcast_S_S131072x512 : ((⟨S_, .f32⟩ : BufTy).Contents (Elt F) → (⟨S131072x512, .f32⟩ : BufTy).Contents (Elt F))),
    binary main_v12 main_v9 main_v13 (mulf : ((⟨S131072x512, .f32⟩ : BufTy).Contents (Elt F) → (⟨S131072x512, .f32⟩ : BufTy).Contents (Elt F) → (⟨S131072x512, .f32⟩ : BufTy).Contents (Elt F))),
    binary main_v11 main_v13 main_v14 (addf : ((⟨S131072x512, .f32⟩ : BufTy).Contents (Elt F) → (⟨S131072x512, .f32⟩ : BufTy).Contents (Elt F) → (⟨S131072x512, .f32⟩ : BufTy).Contents (Elt F))),
    unary main_arg0 main_v15 (broadcastInDim S131072x1 ![0] bcast_S131072_S131072x1_0 : ((⟨S131072, .f32⟩ : BufTy).Contents (Elt F) → (⟨S131072x1, .f32⟩ : BufTy).Contents (Elt F))),
    nullary main_cst_1 (constant S_ .f32 0x00000000#32),
    unary main_cst_1 main_v16 (broadcastInDim S131072x1 ![] bcast_S_S131072x1 : ((⟨S_, .f32⟩ : BufTy).Contents (Elt F) → (⟨S131072x1, .f32⟩ : BufTy).Contents (Elt F))),
    binary main_v15 main_v16 main_v17 (cmpf .olt : ((⟨S131072x1, .f32⟩ : BufTy).Contents (Elt F) → (⟨S131072x1, .f32⟩ : BufTy).Contents (Elt F) → (⟨S131072x1, .i1⟩ : BufTy).Contents (Elt F))),
    nullary main_cst_2 (constant S_ .f32 0x00000000#32),
    TRef.unary (.of main_v17 : TRef sig ⟨S131072x1, .i1⟩) main_call1.v0 (broadcastInDim S131072x512 ![0, 1] bcast_S131072x1_S131072x512_0_1),
    TRef.unary (.of main_cst_2 : TRef sig ⟨S_, .f32⟩) main_call1.v1 (broadcastInDim S131072x512 ![] bcast_S_S131072x512),
    TRef.ternary main_call1.v0 main_call1.v1 (.of main_v14 : TRef sig ⟨S131072x512, .f32⟩) main_call1.v2 select ]

set_option maxRecDepth 2048 in
/-- @main is that straight line: with the outlined functions unfolded at their calls, both sides are one chain of
    host steps once sequencing is re-associated. -/
theorem main_eq (c : Dev nD) : main (F := F) c = seq ops := by
  simp only [main, fn_take.body, fn_where.body, fn_where_0.body, seq, bind_assoc, pure_bind]

attribute [local irreducible] Host.reduce Host.gather in
set_option maxRecDepth 8192 in
set_option maxHeartbeats 800000 in
/-- The fold of the line at the result buffer is `refOut` of the argument buffers' contents: unrolling the fold,
    each operation either writes the buffer read (and its function is applied to the contents of its operands'
    buffers) or leaves it, and the chain of such reads from the result buffer back to the arguments is the
    composition `refOut` spells out. The row-wise conjunction and the gather are kept folded: the equation never
    looks inside them. -/
theorem out_eq (V : Valuation τ sig (Elt F)) :
    after ops V (main_v18 : DevRef τ sig)
      = refOut (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

attribute [local irreducible] Host.reduce Host.gather in
set_option maxRecDepth 8192 in
/-- No operation writes argument 0's buffer. -/
theorem arg0_eq (V : Valuation τ sig (Elt F)) :
    after ops V (main_arg0 : DevRef τ sig) = V (main_arg0 : DevRef τ sig) := by
  simp only [after_cons, after_nil]
  rfl

attribute [local irreducible] Host.reduce Host.gather in
set_option maxRecDepth 8192 in
/-- No operation writes argument 1's buffer. -/
theorem arg1_eq (V : Valuation τ sig (Elt F)) :
    after ops V (main_arg1 : DevRef τ sig) = V (main_arg1 : DevRef τ sig) := by
  simp only [after_cons, after_nil]
  rfl

attribute [local irreducible] Host.reduce Host.gather in
set_option maxRecDepth 8192 in
/-- No operation writes argument 2's buffer. -/
theorem arg2_eq (V : Valuation τ sig (Elt F)) :
    after ops V (main_arg2 : DevRef τ sig) = V (main_arg2 : DevRef τ sig) := by
  simp only [after_cons, after_nil]
  rfl

attribute [local irreducible] Host.reduce Host.gather in
set_option maxRecDepth 8192 in
/-- No operation writes argument 3's buffer. -/
theorem arg3_eq (V : Valuation τ sig (Elt F)) :
    after ops V (main_arg3 : DevRef τ sig) = V (main_arg3 : DevRef τ sig) := by
  simp only [after_cons, after_nil]
  rfl

attribute [local irreducible] Host.reduce Host.gather in
set_option maxRecDepth 8192 in
/-- No operation writes argument 4's buffer. -/
theorem arg4_eq (V : Valuation τ sig (Elt F)) :
    after ops V (main_arg4 : DevRef τ sig) = V (main_arg4 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., binary_bufs_sub .., unary_bufs_sub .., nullary_bufs_sub .., unary_bufs_sub ..,
    binary_bufs_sub .., nullary_bufs_sub .., unary_bufs_sub .., unary_bufs_sub .., ternary_bufs_sub ..⟩

/-- From any memory with zero counters every weakly fair execution of @main terminates, and each TensorCore buffer
    ends at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The run -/

/-- On every device, from any memory with zero counters: every weakly fair execution of the reference's @main
    terminates with its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c main_v18).trans (Line.out_eq _), (h c main_arg0).trans (Line.arg0_eq _), (h c main_arg1).trans (Line.arg1_eq _),
      (h c main_arg2).trans (Line.arg2_eq _), (h c main_arg3).trans (Line.arg3_eq _), (h c main_arg4).trans (Line.arg4_eq _)⟩)
    (Line.run_main m ρ)

end Cert.ReferenceIdeal.Hand

end
-- ==== Proof.RefValue.lean ====
/-
  The reference's term, read entry by entry at the extended reals, is the blend — for markers that are column
  numbers. With `0 ≤ marker < 1000` the index is not negative (nothing is added), the gather's clamp does not
  bind, and the in-range mask is set, so the row taken is column `marker s` of the table (row `marker s` of its
  transpose); the rest of the term is the blend's formula as written.

  In order: the three signed comparisons on a word below 1000; each broadcast of the term read at an index; the
  gather read at `(s, d)` (the table at the clamped start row and column `d`); a conjunction of set bits; the
  rows taken, entry by entry; and the two cases of the final select, on `t s < 0`.
-/
import proofs.«403749_j61864708932005_3_alg».proof.Proof.RefTerm
import proofs.«403749_j61864708932005_3_alg».proof.Proof.Blend
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx

namespace RefValue

/-! ## Marker words below 1000, read as signed integers -/

/-- A word below 1000 is its own value as a signed integer. -/
theorem toInt_of_lt (w : BitVec 32) (h : w.toNat < 1000) : w.toInt = (w.toNat : Int) := by
  rw [BitVec.toInt_eq_toNat_cond, if_pos (by omega)]

/-- Such a word is not negative: the signed comparison with zero fails … -/
theorem cmpi_slt_zero (w : BitVec 32) (h : w.toNat < 1000) : IntOp.cmpi .slt w 0#32 = 0#1 := by
  have hf : w.slt 0#32 = false := by
    rw [BitVec.slt, toInt_of_lt w h]
    simp
  show BitVec.ofBool (w.slt 0#32) = 0#1
  rw [hf]; rfl

/-- … it is at least zero … -/
theorem cmpi_sge_zero (w : BitVec 32) (h : w.toNat < 1000) : IntOp.cmpi .sge w 0#32 = 1#1 := by
  have hf : (0#32 : BitVec 32).sle w = true := by
    rw [BitVec.sle, toInt_of_lt w h]
    simp
  show BitVec.ofBool ((0#32 : BitVec 32).sle w) = 1#1
  rw [hf]; rfl

/-- … and at most 999. -/
theorem cmpi_sle_999 (w : BitVec 32) (h : w.toNat < 1000) : IntOp.cmpi .sle w 999#32 = 1#1 := by
  have h9 : (999#32 : BitVec 32).toInt = 999 := by decide
  have hf : w.sle 999#32 = true := by
    rw [BitVec.sle, toInt_of_lt w h, h9]
    simp only [decide_eq_true_eq]
    omega
  show BitVec.ofBool (w.sle 999#32) = 1#1
  rw [hf]; rfl

/-- The clamp of the gather does not bind on such a word. -/
theorem clamp_of_lt (w : BitVec 32) (h : w.toNat < 1000) : min w.toInt.toNat 999 = w.toNat := by
  rw [toInt_of_lt w h, Int.toNat_natCast]
  omega

/-! ## The broadcasts of this program read at an index -/

section Bcast
variable {α : Type}

/-- A scalar broadcast reads its one element everywhere. -/
theorem bc_scalar {t : Shape} (dims : Fin S_.rank → Fin t.rank) (h : S_.BroadcastsInDim t dims) (x : S_.Idx → α) (j : t.Idx) :
    broadcastInDim t dims h x j = x ix0 :=
  broadcastInDim_apply dims h x j ix0 fun a => a.elim0

/-- A vector over the events as a one-column array: entry `(s, 0)` is entry `s`. -/
theorem bc_col (h : S131072.BroadcastsInDim S131072x1 ![0]) (x : S131072.Idx → α) (s : Fin 131072) (z : Fin 1) :
    broadcastInDim S131072x1 ![0] h x (ix2 s z) = x (ix1 s) :=
  broadcastInDim_apply _ h x _ (ix1 s) fun a => match a with | ⟨0, _⟩ => rfl

/-- A vector over the events repeated along the model dimension. -/
theorem bc_rows (h : S131072.BroadcastsInDim S131072x512 ![0]) (x : S131072.Idx → α) (s : Fin 131072) (d : Fin 512) :
    broadcastInDim S131072x512 ![0] h x (ix2 s d) = x (ix1 s) :=
  broadcastInDim_apply _ h x _ (ix1 s) fun a => match a with | ⟨0, _⟩ => rfl

/-- A one-element vector as a one-by-one array. -/
theorem bc_one (h : S1.BroadcastsInDim S1x1 ![1]) (x : S1.Idx → α) (j : S1x1.Idx) :
    broadcastInDim S1x1 ![1] h x j = x (ix1 0) :=
  broadcastInDim_apply _ h x _ (ix1 0) fun a => match a with | ⟨0, _⟩ => rfl

/-- A one-by-one array repeated down a column. -/
theorem bc_one_col (h : S1x1.BroadcastsInDim S131072x1 ![0, 1]) (x : S1x1.Idx → α) (j : S131072x1.Idx) :
    broadcastInDim S131072x1 ![0, 1] h x j = x (ix2 0 0) :=
  broadcastInDim_apply _ h x _ (ix2 0 0) fun a => match a with | ⟨0, _⟩ => rfl | ⟨1, _⟩ => rfl

/-- A model-dimension vector as a one-row array. -/
theorem bc_row (h : S512.BroadcastsInDim S1x512 ![1]) (x : S512.Idx → α) (z : Fin 1) (d : Fin 512) :
    broadcastInDim S1x512 ![1] h x (ix2 z d) = x (ix1 d) :=
  broadcastInDim_apply _ h x _ (ix1 d) fun a => match a with | ⟨0, _⟩ => rfl

/-- A one-column array repeated along the model dimension. -/
theorem bc_col_full (h : S131072x1.BroadcastsInDim S131072x512 ![0, 1]) (x : S131072x1.Idx → α) (s : Fin 131072) (d : Fin 512) :
    broadcastInDim S131072x512 ![0, 1] h x (ix2 s d) = x (ix2 s 0) :=
  broadcastInDim_apply _ h x _ (ix2 s 0) fun a => match a with | ⟨0, _⟩ => rfl | ⟨1, _⟩ => rfl

/-- A one-row array repeated over the events. -/
theorem bc_row_full (h : S1x512.BroadcastsInDim S131072x512 ![0, 1]) (x : S1x512.Idx → α) (s : Fin 131072) (d : Fin 512) :
    broadcastInDim S131072x512 ![0, 1] h x (ix2 s d) = x (ix2 0 d) :=
  broadcastInDim_apply _ h x _ (ix2 0 d) fun a => match a with | ⟨0, _⟩ => rfl | ⟨1, _⟩ => rfl

end Bcast

/-! ## The gather of this program read at an index -/

/-- Result entry `(s, d)` of the gather is the table at row `idx[s, 0]` — read signed and clamped into `[0, 999]` —
    and column `d`: axis 0 of the table carries the start index and is collapsed, axis 1 is the offset axis. -/
theorem gather_rows_apply {α : Type} (tab : S1000x512.Idx → α) (idx : IVec S131072x1 32) (s : Fin 131072) (d : Fin 512) :
    Host.gather gather_S1000x512_S131072x1_S131072x512_1_0_n_n_0_1_1512 tab idx (ix2 s d)
      = tab (ix2 ⟨min (idx (ix2 s 0)).toInt.toNat 999, by omega⟩ d) := by
  unfold Host.gather
  refine congrArg tab (funext fun a => Fin.ext ?_)
  match a with
  | ⟨0, _⟩ =>
    show gather_S1000x512_S131072x1_S131072x512_1_0_n_n_0_1_1512.start (ix2 s d) idx 0
        + gather_S1000x512_S131072x1_S131072x512_1_0_n_n_0_1_1512.batchCoord (ix2 s d) 0
        + gather_S1000x512_S131072x1_S131072x512_1_0_n_n_0_1_1512.offCoord (ix2 s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x512_S131072x1_S131072x512_1_0_n_n_0_1_1512.startIndexMap from
      List.mem_singleton.mpr rfl)]
    have hsi : gather_S1000x512_S131072x1_S131072x512_1_0_n_n_0_1_1512.siIdx (ix2 s d)
        ⟨List.idxOf (0 : Fin 2) gather_S1000x512_S131072x1_S131072x512_1_0_n_n_0_1_1512.startIndexMap,
          List.idxOf_lt_length_iff.2 (List.mem_singleton.mpr rfl)⟩ = ix2 s 0 := by
      funext b; refine Fin.ext ?_
      match b with
      | ⟨0, _⟩ => rfl
      | ⟨1, _⟩ => rfl
    rw [hsi]
    rfl
  | ⟨1, _⟩ =>
    show gather_S1000x512_S131072x1_S131072x512_1_0_n_n_0_1_1512.start (ix2 s d) idx 1
        + gather_S1000x512_S131072x1_S131072x512_1_0_n_n_0_1_1512.batchCoord (ix2 s d) 1
        + gather_S1000x512_S131072x1_S131072x512_1_0_n_n_0_1_1512.offCoord (ix2 s d) 1 = d.val
    rw [GatherDims.batchCoord_eq_zero _ _ _ List.not_mem_nil]
    have hst : gather_S1000x512_S131072x1_S131072x512_1_0_n_n_0_1_1512.start (ix2 s d) idx 1 = 0 := by
      unfold GatherDims.start
      rw [dif_neg (show (1 : Fin 2) ∉ gather_S1000x512_S131072x1_S131072x512_1_0_n_n_0_1_1512.startIndexMap by decide)]
    rw [hst]
    simp only [Nat.add_zero, Nat.zero_add]
    rfl

/-! ## A conjunction of set bits -/

/-- Folding `and` from the bit 1 over bits that are all 1 gives 1. -/
theorem foldl_andi_one {ι : Type} (x : ι → BitVec 1) (l : List ι) (hx : ∀ i, x i = 1#1) :
    l.foldl (fun r i => IntOp.andi r (x i)) 1#1 = 1#1 := by
  induction l with
  | nil => rfl
  | cons a l ih =>
    rw [List.foldl_cons, hx a]
    exact ih

/-- A reduction by `and`, from the bit 1, of an array whose bits are all 1 is 1 at every index. -/
theorem reduce_andi_one {s t u : Shape} {axes : List (Fin s.rank)} (x : IVec s 1) (init : IVec u 1) (h : s.ReducesTo axes t)
    (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ hx

/-! ## The rows taken -/

/-- Under the range hypothesis the index adjustment adds nothing: the adjusted index array is the marker array. -/
theorem adjusted_eq (mk : IVec S131072 32) (hmk : ∀ i : S131072.Idx, (mk i).toNat < 1000) :
    select (cmpi .slt mk (broadcastInDim S131072 ![] bcast_S_S131072 (constantI S_ 32 0#32)))
      (addi mk (broadcastInDim S131072 ![] bcast_S_S131072 (constantI S_ 32 1000#32))) mk = mk := by
  funext j
  show Scalar.select (IntOp.cmpi .slt (mk j) (broadcastInDim S131072 ![] bcast_S_S131072 (constantI S_ 32 0#32) j)) _ (mk j) = mk j
  rw [bc_scalar]
  show Scalar.select (IntOp.cmpi .slt (mk j) 0#32) _ (mk j) = mk j
  rw [cmpi_slt_zero _ (hmk j), select_zero]

/-- Under the range hypothesis every bit of the in-range mask is set. -/
theorem mask_eq_one (mk : IVec S131072 32) (hmk : ∀ i : S131072.Idx, (mk i).toNat < 1000) (j : S131072x1.Idx) :
    andi (cmpi .sge (broadcastInDim S131072x1 ![0] bcast_S131072_S131072x1_0 mk)
        (broadcastInDim S131072x1 ![] bcast_S_S131072x1 (constantI S_ 32 0#32)))
      (cmpi .sle (broadcastInDim S131072x1 ![0] bcast_S131072_S131072x1_0 mk)
        (broadcastInDim S131072x1 ![0, 1] bcast_S1x1_S131072x1_0_1
          (broadcastInDim S1x1 ![1] bcast_S1_S1x1_1 (constantI S1 32 999#32)))) j = 1#1 := by
  obtain ⟨s, z, rfl⟩ : ∃ (s : Fin 131072) (z : Fin 1), j = ix2 s z := ⟨j 0, j 1, eq_ix2 j⟩
  show IntOp.andi
      (IntOp.cmpi .sge (broadcastInDim S131072x1 ![0] bcast_S131072_S131072x1_0 mk (ix2 s z))
        (broadcastInDim S131072x1 ![] bcast_S_S131072x1 (constantI S_ 32 0#32) (ix2 s z)))
      (IntOp.cmpi .sle (broadcastInDim S131072x1 ![0] bcast_S131072_S131072x1_0 mk (ix2 s z))
        (broadcastInDim S131072x1 ![0, 1] bcast_S1x1_S131072x1_0_1
          (broadcastInDim S1x1 ![1] bcast_S1_S1x1_1 (constantI S1 32 999#32)) (ix2 s z))) = 1#1
  rw [bc_col, bc_scalar, bc_one_col, bc_one]
  show IntOp.andi (IntOp.cmpi .sge (mk (ix1 s)) 0#32) (IntOp.cmpi .sle (mk (ix1 s)) 999#32) = 1#1
  rw [cmpi_sge_zero _ (hmk _), cmpi_sle_999 _ (hmk _)]
  rfl

/-- Entry `(s, d)` of the rows taken is the table at row `marker s`, column `d`. -/
theorem takeRows_apply (tab : FVec Ideal S1000x512 .f32) (mk : IVec S131072 32)
    (hmk : ∀ i : S131072.Idx, (mk i).toNat < 1000) (s : Fin 131072) (d : Fin 512) :
    takeRows tab mk (ix2 s d) = tab (ix2 ⟨(mk (ix1 s)).toNat, hmk (ix1 s)⟩ d) := by
  unfold takeRows
  dsimp only
  rw [adjusted_eq mk hmk]
  rw [select_apply, bc_rows, reduce_andi_one _ (constantI S_ 1 1#1) _ _ (mask_eq_one mk hmk) (fun _ => rfl), select_one,
    gather_rows_apply]
  refine congrArg tab (congrArg (fun r => ix2 r d) (Fin.ext ?_))
  show min (broadcastInDim S131072x1 ![0] bcast_S131072_S131072x1_0 mk (ix2 s 0)).toInt.toNat 999 = (mk (ix1 s)).toNat
  rw [bc_col]
  exact clamp_of_lt _ (hmk _)

/-! ## The comparison with zero at the extended reals -/

/-- The ordered "less than" of extended reals is the bit 1 when it holds … -/
theorem cmp_olt_of_lt {x y : EReal} (h : x < y) : Ideal.cmp .olt x y = 1#1 := by
  show BitVec.ofBool (decide (x < y)) = 1#1
  rw [decide_eq_true h]; rfl

/-- … and the bit 0 when it does not. -/
theorem cmp_olt_of_not_lt {x y : EReal} (h : ¬ x < y) : Ideal.cmp .olt x y = 0#1 := by
  show BitVec.ofBool (decide (x < y)) = 0#1
  rw [decide_eq_false h]; rfl

end RefValue

open RefValue

/-! ## The reference is the blend -/

theorem refOut_eq_blend (t : FVec Ideal S131072 .f32) (mk : IVec S131072 32) (Wm : FVec Ideal S512x1000 .f32)
    (Wt bt : FVec Ideal S512 .f32) (hmk : ∀ i : S131072.Idx, (mk i).toNat < 1000) :
    refOut (F := Ideal) t mk Wm Wt bt = Cert.Blend.blend t mk Wm Wt bt := by
  funext i
  obtain ⟨s, d, rfl⟩ : ∃ (s : Fin 131072) (d : Fin 512), i = ix2 s d := ⟨i 0, i 1, eq_ix2 i⟩
  rw [Cert.Blend.blend_apply]
  unfold refOut Cert.Blend.blendAt
  dsimp only
  rw [select_apply, bc_col_full, cmpf_apply, bc_col, bc_scalar, constant_apply, Ideal.ofBits_zero_f32, Ideal.cmpf_def]
  by_cases hlt : t (ix1 s) < 0
  · rw [cmp_olt_of_lt hlt, select_one, if_pos hlt, bc_scalar, constant_apply, Ideal.ofBits_zero_f32]
  · rw [cmp_olt_of_not_lt hlt, select_zero, if_neg hlt]
    rw [addf_apply, mulf_apply, mulf_apply, addf_apply, mulf_apply, bc_scalar, constant_apply, takeRows_apply _ _ hmk,
      transpose_ix2_apply, bc_col_full, bc_col, bc_row_full, bc_row, bc_row_full, bc_row, Cert.Blend.col_of_lt _ (hmk _)]

end Cert.ReferenceIdeal.Hand

end
-- ==== Proof.PreFacts.lean ====
/-
  What the precondition says, entry by entry, at the extended reals: every entry of the four float inputs is a
  real number (its absolute value is below +∞), and every marker is a column number, `0 ≤ marker < 1000` as a
  signed word, hence below 1000 as a natural number.

  The printed precondition is a conjunction (`and` of one-bit words) of six all-reductions by `and`, each over
  an elementwise comparison. A conjunction of one-bit words is 1 only if both sides are 1, and an all-reduction by
  `and` starting from 1 is 1 only if every reduced element is 1; so each elementwise comparison holds at every
  index. The broadcast scalar constants read, at any index, as the constant itself.
-/
import proofs.«403749_j61864708932005_3_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Decoded

open Cert.Pre_finite_inputs Cert.Pre_finite_inputs.Gen Idealize.ShloMosaic

variable (t : FVec Ideal S131072 .f32) (mk : IVec S131072 32) (Wm : FVec Ideal S512x1000 .f32) (Wt bt : FVec Ideal S512 .f32)

/-- The scalar shape has exactly one index (a function out of the empty set of axes). -/
local instance subsingleton_scalarIdx : Subsingleton S_.Idx := ⟨fun a b => funext fun d => d.elim0⟩

/-- The pattern 0x7F800000 denotes +∞, so "max x (-x) < that pattern" excludes both infinities: if x = ⊤ then
    max x (-x) = ⊤, and if x = ⊥ then -x = ⊤ and again the maximum is ⊤; neither is below ⊤. What remains of the
    extended reals is a real number. -/
theorem real_of_abs_lt_inf (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- A 32-bit word w with 0 ≤ w and w < 1000 as signed integers: the signed value of a word is its unsigned value
    when that is below 2³¹ and 2³² less otherwise; the second case would make w negative, so the signed value is
    the unsigned one, and it is below 1000. -/
theorem toNat_lt_of_signed_range (w : BitVec 32) (h0 : IntOp.cmpi .sge w 0#32 = 1#1)
    (h1 : IntOp.cmpi .slt w 1000#32 = 1#1) : w.toNat < 1000 := by
  have ob : ∀ b : Bool, BitVec.ofBool b = 1#1 → b = true := by decide
  simp only [IntOp.cmpi] at h0 h1
  have a0 := ob _ h0
  have a1 := ob _ h1
  have e0 : (0#32).toInt = 0 := by decide
  have e1 : (1000#32).toInt = 1000 := by decide
  simp only [BitVec.sle, BitVec.slt, decide_eq_true_eq, e0, e1] at a0 a1
  rw [BitVec.toInt_eq_toNat_cond] at a0 a1
  have := w.isLt
  split at a0 <;> split at a1 <;> omega

/-- The precondition read back: it is `((((c₁ ∧ c₂) ∧ c₃) ∧ c₄) ∧ c₅) ∧ c₆` with cₖ the all-reduction of the k-th
    elementwise comparison; being 1, it gives each comparison at each index. At an index the comparisons are:
    max x (-x) < (the value of 0x7F800000) for the entries x of the four float arrays, and 0 ≤ marker,
    marker < 1000 as signed words. -/
theorem elementwise (h : fn (F := Ideal) t mk Wm Wt bt = fun _ => 1#1) :
    (∀ i, Ideal.cmp .olt (max (t i) (-(t i))) (Ideal.ofBits .f32 0x7F800000#32) = 1#1) ∧
    (∀ i, Ideal.cmp .olt (max (Wm i) (-(Wm i))) (Ideal.ofBits .f32 0x7F800000#32) = 1#1) ∧
    (∀ i, Ideal.cmp .olt (max (Wt i) (-(Wt i))) (Ideal.ofBits .f32 0x7F800000#32) = 1#1) ∧
    (∀ i, Ideal.cmp .olt (max (bt i) (-(bt i))) (Ideal.ofBits .f32 0x7F800000#32) = 1#1) ∧
    (∀ i, IntOp.cmpi .sge (mk i) 0#32 = 1#1) ∧ (∀ i, IntOp.cmpi .slt (mk i) 1000#32 = 1#1) := by
  have h0 := congrFun h ValueIdx.ix0
  dsimp only [fn, fn_part1] at h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c1, c2⟩ := IntOp.andi_eq_one.1 h0
  exact ⟨fun i => Host.reduce_andi_all _ _ _ _ _ c1 i, fun i => Host.reduce_andi_all _ _ _ _ _ c2 i,
    fun i => Host.reduce_andi_all _ _ _ _ _ c3 i, fun i => Host.reduce_andi_all _ _ _ _ _ c4 i,
    fun i => Host.reduce_andi_all _ _ _ _ _ c5 i, fun i => Host.reduce_andi_all _ _ _ _ _ c6 i⟩

theorem t_real (h : fn (F := Ideal) t mk Wm Wt bt = fun _ => 1#1) (i : S131072.Idx) : ∃ r : ℝ, t i = (r : EReal) :=
  real_of_abs_lt_inf _ ((elementwise t mk Wm Wt bt h).1 i)

theorem Wm_real (h : fn (F := Ideal) t mk Wm Wt bt = fun _ => 1#1) (i : S512x1000.Idx) : ∃ r : ℝ, Wm i = (r : EReal) :=
  real_of_abs_lt_inf _ ((elementwise t mk Wm Wt bt h).2.1 i)

theorem Wt_real (h : fn (F := Ideal) t mk Wm Wt bt = fun _ => 1#1) (i : S512.Idx) : ∃ r : ℝ, Wt i = (r : EReal) :=
  real_of_abs_lt_inf _ ((elementwise t mk Wm Wt bt h).2.2.1 i)

theorem bt_real (h : fn (F := Ideal) t mk Wm Wt bt = fun _ => 1#1) (i : S512.Idx) : ∃ r : ℝ, bt i = (r : EReal) :=
  real_of_abs_lt_inf _ ((elementwise t mk Wm Wt bt h).2.2.2.1 i)

/-- A marker in `[0, 1000)` signed is below 1000 unsigned. -/
theorem marker_lt (h : fn (F := Ideal) t mk Wm Wt bt = fun _ => 1#1) (i : S131072.Idx) : (mk i).toNat < 1000 :=
  toNat_lt_of_signed_range _ ((elementwise t mk Wm Wt bt h).2.2.2.2.1 i) ((elementwise t mk Wm Wt bt h).2.2.2.2.2 i)

end Cert.Pre_finite_inputs.Decoded

end
-- ==== Proof.lean ====
/-
  The certificate of a time-and-marker embedding kernel against its reference: for 131072 events with a time
  `t s` and a marker `marker s`, both programs compute

      out[s, d] = 0                                                        if t[s] < 0
      out[s, d] = ½ · W_m[d, marker[s]] + ½ · (t[s] · W_t[d] + b_t[d])      otherwise,

  under the precondition that every float input is finite and every marker is a column number of the table,
  `0 ≤ marker < 1000`.

  The reference takes row `marker s` of the transposed table (a gather whose index is in range, so neither the
  wrap-around of a negative index nor the out-of-range fill is reached), forms `t ⊗ W_t + b_t`, halves both and
  adds them, and selects zero where `t < 0`: the blend as written (`Hand.refOut_eq_blend`). The kernel halves the
  table, the slope and the offset on the host, and in each of 32 grid points builds, for eight chunks of 512 rows,
  the one-hot rows of the markers, multiplies them into the halved table (a sum with one non-zero term), adds
  `t ⊗ (½ W_t) + ½ b_t` and multiplies by the indicator of `t ≥ 0`; the row blocks tile the result
  (`Result.run`). The two arrangements agree on real numbers by distributivity (`Blend.masked_eq_select`), which
  is where finiteness is used. The three frames are the runs with the result dropped; the idealization rewrote no
  operation, so `preserves` has nothing to state.
-/
import proofs.«403749_j61864708932005_3_alg».proof.Defs
import proofs.«403749_j61864708932005_3_alg».proof.Proof.Gen.Kernel
import proofs.«403749_j61864708932005_3_alg».proof.Proof.Gen.Kernel.Skeleton
import proofs.«403749_j61864708932005_3_alg».proof.Proof.Gen.Kernel.Launch
import proofs.«403749_j61864708932005_3_alg».proof.Proof.Gen.Kernel.Points
import proofs.«403749_j61864708932005_3_alg».proof.Proof.Gen.Kernel.Frame
import proofs.«403749_j61864708932005_3_alg».proof.Proof.Gen.KernelIdeal
import proofs.«403749_j61864708932005_3_alg».proof.Proof.Gen.KernelIdeal.Skeleton
import proofs.«403749_j61864708932005_3_alg».proof.Proof.Gen.KernelIdeal.Launch
import proofs.«403749_j61864708932005_3_alg».proof.Proof.Gen.KernelIdeal.Points
import proofs.«403749_j61864708932005_3_alg».proof.Proof.Gen.KernelIdeal.Frame
import proofs.«403749_j61864708932005_3_alg».proof.Proof.Gen.ReferenceIdeal
import proofs.«403749_j61864708932005_3_alg».proof.Proof.Gen.Pre_finite_inputs
import proofs.«403749_j61864708932005_3_alg».proof.Proof.KernelValue
import proofs.«403749_j61864708932005_3_alg».proof.Proof.RefRun
import proofs.«403749_j61864708932005_3_alg».proof.Proof.RefValue
import proofs.«403749_j61864708932005_3_alg».proof.Proof.PreFacts
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The precondition, decoded on each core: markers are column numbers, float entries are real numbers. -/
theorem admissible (m : (ℓ : Loc Cert.KernelIdeal.nD Cert.KernelIdeal.τ Cert.KernelIdeal.sig) → Buf (Elt Ideal) ℓ) (h : Cert.Pre_KernelIdeal m)
    (c : Dev Cert.KernelIdeal.nD) : Cert.KernelIdeal.Result.Admissible m c where
  marker_lt i := Cert.Pre_finite_inputs.Decoded.marker_lt _ _ _ _ _ (h c) i
  times_real i := Cert.Pre_finite_inputs.Decoded.t_real _ _ _ _ _ (h c) i
  table_real i := Cert.Pre_finite_inputs.Decoded.Wm_real _ _ _ _ _ (h c) i
  slope_real i := Cert.Pre_finite_inputs.Decoded.Wt_real _ _ _ _ _ (h c) i
  offset_real i := Cert.Pre_finite_inputs.Decoded.bt_real _ _ _ _ _ (h c) i

/-- Both programs end with the blend of the (agreeing) arguments. -/
theorem algebraic : Cert.algebraic_KernelIdeal_ReferenceIdeal := by
  intro m ρ m' ρ' hpre hagree
  refine ⟨fun c => Cert.KernelIdeal.Result.goal m c, Cert.KernelIdeal.Result.run m ρ (admissible m hpre), ?_⟩
  refine (θ_run Cert.ReferenceIdeal.defs _ _).mono (fun _ h c => ⟨(h c).1.trans ?_, (h c).2⟩) (Cert.ReferenceIdeal.Hand.run (F := Ideal) m' ρ')
  rw [(hagree c).1, (hagree c).2.1, (hagree c).2.2.1, (hagree c).2.2.2.1, (hagree c).2.2.2.2]
  exact Cert.ReferenceIdeal.Hand.refOut_eq_blend _ _ _ _ _ (admissible m hpre c).marker_lt

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
